-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S2299964 : Shape := ⟨1, ![2299964]⟩
abbrev S200000x100 : Shape := ⟨2, ![200000, 100]⟩
abbrev S100000x100 : Shape := ⟨2, ![100000, 100]⟩
abbrev S200x128 : Shape := ⟨2, ![200, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S200000x1 : Shape := ⟨2, ![200000, 1]⟩
abbrev S300000x1 : Shape := ⟨2, ![300000, 1]⟩
abbrev S_ : Shape := ⟨0, ![]⟩

class Facts : Prop where
  bcast_S_S2299964 : S_.BroadcastsInDim S2299964 (![] : Fin 0 → Fin S2299964.rank)
  reducesTo_S2299964_S_d0 : S2299964.ReducesTo [0] S_
  h_S_ : 0 < S_.numel
  bcast_S_S200000x100 : S_.BroadcastsInDim S200000x100 (![] : Fin 0 → Fin S200000x100.rank)
  reducesTo_S200000x100_S_d0_1 : S200000x100.ReducesTo [0, 1] S_
  bcast_S_S100000x100 : S_.BroadcastsInDim S100000x100 (![] : Fin 0 → Fin S100000x100.rank)
  reducesTo_S100000x100_S_d0_1 : S100000x100.ReducesTo [0, 1] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S200000x1 : S_.BroadcastsInDim S200000x1 (![] : Fin 0 → Fin S200000x1.rank)
  reducesTo_S200000x1_S_d0_1 : S200000x1.ReducesTo [0, 1] S_
  bcast_S_S300000x1 : S_.BroadcastsInDim S300000x1 (![] : Fin 0 → Fin S300000x1.rank)
  reducesTo_S300000x1_S_d0_1 : S300000x1.ReducesTo [0, 1] S_

variable [Facts]

def fn_part3 {F : FTy → Type} [FloatOps F] (main_arg15 : FVec F S200000x1 .f32) (main_arg16 : FVec F S300000x1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S200000x1 .f32 := Host.absf main_arg15
  let main_cst_20 : FVec F S_ .f32 := constant S_ .f32 0x7F800000#32
  let main_v55 : FVec F S200000x1 .f32 := broadcastInDim S200000x1 ![] bcast_S_S200000x1 main_cst_20
  let main_v56 : IVec S200000x1 1 := cmpf .olt main_v54 main_v55
  let main_c_21 : IVec S_ 1 := constantI S_ 1 1#1
  let main_v57 : IVec S_ 1 := (fun x v => Host.reduce IntOp.andi x v reducesTo_S200000x1_S_d0_1 h_S_) main_v56 main_c_21
  let main_v58 : IVec S_ 1 := andi main_v53 main_v57
  let main_v59 : FVec F S300000x1 .f32 := Host.absf main_arg16
  let main_cst_22 : FVec F S_ .f32 := constant S_ .f32 0x7F800000#32
  let main_v60 : FVec F S300000x1 .f32 := broadcastInDim S300000x1 ![] bcast_S_S300000x1 main_cst_22
  let main_v61 : IVec S300000x1 1 := cmpf .olt main_v59 main_v60
  let main_c_23 : IVec S_ 1 := constantI S_ 1 1#1
  let main_v62 : IVec S_ 1 := (fun x v => Host.reduce IntOp.andi x v reducesTo_S300000x1_S_d0_1 h_S_) main_v61 main_c_23
  let main_v63 : IVec S_ 1 := andi main_v58 main_v62
  main_v63

def fn_part2 {F : FTy → Type} [FloatOps F] (main_arg11 : FVec F S64x32 .f32) (main_arg12 : FVec F S32 .f32) (main_arg13 : FVec F S32x1 .f32) (main_arg14 : FVec F S1 .f32) (main_arg15 : FVec F S200000x1 .f32) (main_arg16 : FVec F S300000x1 .f32) (main_v33 : IVec S_ 1) : IVec S_ 1 :=
  let main_v34 : FVec F S64x32 .f32 := Host.absf main_arg11
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg12
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg13
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg14
  let main_cst_18 : FVec F S_ .f32 := constant S_ .f32 0x7F800000#32
  let main_v50 : FVec F S1 .f32 := broadcastInDim S1 ![] bcast_S_S1 main_cst_18
  fn_part3 (F := F) main_arg15 main_arg16 main_v48 main_v49 main_v50

def fn_part1 {F : FTy → Type} [FloatOps F] (main_arg8 : FVec F S128 .f32) (main_arg9 : FVec F S128x64 .f32) (main_arg10 : FVec F S64 .f32) (main_arg11 : FVec F S64x32 .f32) (main_arg12 : FVec F S32 .f32) (main_arg13 : FVec F S32x1 .f32) (main_arg14 : FVec F S1 .f32) (main_arg15 : FVec F S200000x1 .f32) (main_arg16 : FVec F S300000x1 .f32) (main_v13 : IVec S_ 1) (main_v16 : IVec S200x128 1) : IVec S_ 1 :=
  let main_c_5 : IVec S_ 1 := constantI S_ 1 1#1
  let main_v17 : IVec S_ 1 := (fun x v => Host.reduce IntOp.andi x v reducesTo_S200x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg9
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : IVec S16384 32) (main_arg1 : IVec S16384 32) (main_arg2 : IVec S2299964 32) (main_arg3 : IVec S2299964 32) (main_arg4 : FVec F S2299964 .f32) (main_arg5 : FVec F S200000x100 .f32) (main_arg6 : FVec F S100000x100 .f32) (main_arg7 : FVec F S200x128 .f32) (main_arg8 : FVec F S128 .f32) (main_arg9 : FVec F S128x64 .f32) (main_arg10 : FVec F S64 .f32) (main_arg11 : FVec F S64x32 .f32) (main_arg12 : FVec F S32 .f32) (main_arg13 : FVec F S32x1 .f32) (main_arg14 : FVec F S1 .f32) (main_arg15 : FVec F S200000x1 .f32) (main_arg16 : FVec F S300000x1 .f32) : IVec S_ 1 :=
  let main_v0 : FVec F S2299964 .f32 := Host.absf main_arg4
  let main_cst : FVec F S_ .f32 := constant S_ .f32 0x7F800000#32
  let main_v1 : FVec F S2299964 .f32 := broadcastInDim S2299964 ![] bcast_S_S2299964 main_cst
  let main_v2 : IVec S2299964 1 := cmpf .olt main_v0 main_v1
  let main_c : IVec S_ 1 := constantI S_ 1 1#1
  let main_v3 : IVec S_ 1 := (fun x v => Host.reduce IntOp.andi x v reducesTo_S2299964_S_d0 h_S_) main_v2 main_c
  let main_v4 : FVec F S200000x100 .f32 := Host.absf main_arg5
  let main_cst_0 : FVec F S_ .f32 := constant S_ .f32 0x7F800000#32
  let main_v5 : FVec F S200000x100 .f32 := broadcastInDim S200000x100 ![] bcast_S_S200000x100 main_cst_0
  let main_v6 : IVec S200000x100 1 := cmpf .olt main_v4 main_v5
  let main_c_1 : IVec S_ 1 := constantI S_ 1 1#1
  let main_v7 : IVec S_ 1 := (fun x v => Host.reduce IntOp.andi x v reducesTo_S200000x100_S_d0_1 h_S_) main_v6 main_c_1
  let main_v8 : IVec S_ 1 := andi main_v3 main_v7
  let main_v9 : FVec F S100000x100 .f32 := Host.absf main_arg6
  let main_cst_2 : FVec F S_ .f32 := constant S_ .f32 0x7F800000#32
  let main_v10 : FVec F S100000x100 .f32 := broadcastInDim S100000x100 ![] bcast_S_S100000x100 main_cst_2
  let main_v11 : IVec S100000x100 1 := cmpf .olt main_v9 main_v10
  let main_c_3 : IVec S_ 1 := constantI S_ 1 1#1
  let main_v12 : IVec S_ 1 := (fun x v => Host.reduce IntOp.andi x v reducesTo_S100000x100_S_d0_1 h_S_) main_v11 main_c_3
  let main_v13 : IVec S_ 1 := andi main_v8 main_v12
  let main_v14 : FVec F S200x128 .f32 := Host.absf main_arg7
  let main_cst_4 : FVec F S_ .f32 := constant S_ .f32 0x7F800000#32
  let main_v15 : FVec F S200x128 .f32 := broadcastInDim S200x128 ![] bcast_S_S200x128 main_cst_4
  let main_v16 : IVec S200x128 1 := cmpf .olt main_v14 main_v15
  fn_part1 (F := F) main_arg8 main_arg9 main_arg10 main_arg11 main_arg12 main_arg13 main_arg14 main_arg15 main_arg16 main_v13 main_v16
-- ==== Kernel.lean ====
abbrev S16384 : Shape := ⟨1, ![16384]⟩
abbrev S2299964 : Shape := ⟨1, ![2299964]⟩
abbrev S200000x100 : Shape := ⟨2, ![200000, 100]⟩
abbrev S100000x100 : Shape := ⟨2, ![100000, 100]⟩
abbrev S200x128 : Shape := ⟨2, ![200, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S200000x1 : Shape := ⟨2, ![200000, 1]⟩
abbrev S300000x1 : Shape := ⟨2, ![300000, 1]⟩
abbrev S_ : Shape := ⟨0, ![]⟩
abbrev S300000x100 : Shape := ⟨2, ![300000, 100]⟩
abbrev S2299964x1 : Shape := ⟨2, ![2299964, 1]⟩
abbrev S2299964x100 : Shape := ⟨2, ![2299964, 100]⟩
abbrev S16384x1 : Shape := ⟨2, ![16384, 1]⟩
abbrev S16384x100 : Shape := ⟨2, ![16384, 100]⟩
abbrev S16384x2 : Shape := ⟨2, ![16384, 2]⟩
abbrev S100x128 : Shape := ⟨2, ![100, 128]⟩
abbrev S1x128 : Shape := ⟨2, ![1, 128]⟩
abbrev S1x64 : Shape := ⟨2, ![1, 64]⟩
abbrev S1x32 : Shape := ⟨2, ![1, 32]⟩
abbrev S1x1 : Shape := ⟨2, ![1, 1]⟩
abbrev S2048x100 : Shape := ⟨2, ![2048, 100]⟩
abbrev S2048 : Shape := ⟨1, ![2048]⟩
abbrev S2048x128 : Shape := ⟨2, ![2048, 128]⟩
abbrev S2048x64 : Shape := ⟨2, ![2048, 64]⟩
abbrev S2048x32 : Shape := ⟨2, ![2048, 32]⟩

abbrev nBuf : Space → Nat
  | .hbm => 147
  | .vmem => 17
  | .smem => 0
  | _ => 0

abbrev hbmTy0_0 (i : Nat) : BufTy := match i % 128 with
  | 0 => ⟨S16384, .i32⟩
  | 1 => ⟨S16384, .i32⟩
  | 2 => ⟨S2299964, .i32⟩
  | 3 => ⟨S2299964, .i32⟩
  | 4 => ⟨S2299964, .f32⟩
  | 5 => ⟨S200000x100, .f32⟩
  | 6 => ⟨S100000x100, .f32⟩
  | 7 => ⟨S200x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S200000x1, .f32⟩
  | 16 => ⟨S300000x1, .f32⟩
  | 17 => ⟨S_, .i32⟩
  | 18 => ⟨S16384, .i32⟩
  | 19 => ⟨S16384, .i32⟩
  | 20 => ⟨S300000x100, .f32⟩
  | 21 => ⟨S2299964x1, .f32⟩
  | 22 => ⟨S_, .i32⟩
  | 23 => ⟨S2299964, .i32⟩
  | 24 => ⟨S2299964, .i1⟩
  | 25 => ⟨S_, .i32⟩
  | 26 => ⟨S2299964, .i32⟩
  | 27 => ⟨S2299964, .i32⟩
  | 28 => ⟨S2299964, .i32⟩
  | 29 => ⟨S2299964x1, .i32⟩
  | 30 => ⟨S2299964x100, .f32⟩
  | 31 => ⟨S2299964x100, .f32⟩
  | 32 => ⟨S2299964x100, .f32⟩
  | 33 => ⟨S_, .f32⟩
  | 34 => ⟨S300000x100, .f32⟩
  | 35 => ⟨S2299964x1, .i32⟩
  | 36 => ⟨S300000x100, .f32⟩
  | 37 => ⟨S300000x100, .f32⟩
  | 38 => ⟨S2299964x1, .f32⟩
  | 39 => ⟨S_, .i32⟩
  | 40 => ⟨S2299964, .i32⟩
  | 41 => ⟨S2299964, .i1⟩
  | 42 => ⟨S_, .i32⟩
  | 43 => ⟨S2299964, .i32⟩
  | 44 => ⟨S2299964, .i32⟩
  | 45 => ⟨S2299964, .i32⟩
  | 46 => ⟨S2299964x1, .i32⟩
  | 47 => ⟨S2299964x100, .f32⟩
  | 48 => ⟨S2299964x100, .f32⟩
  | 49 => ⟨S2299964x100, .f32⟩
  | 50 => ⟨S_, .f32⟩
  | 51 => ⟨S300000x100, .f32⟩
  | 52 => ⟨S2299964x1, .i32⟩
  | 53 => ⟨S300000x100, .f32⟩
  | 54 => ⟨S300000x100, .f32⟩
  | 55 => ⟨S2299964x1, .f32⟩
  | 56 => ⟨S_, .i32⟩
  | 57 => ⟨S2299964, .i32⟩
  | 58 => ⟨S2299964, .i1⟩
  | 59 => ⟨S_, .i32⟩
  | 60 => ⟨S2299964, .i32⟩
  | 61 => ⟨S2299964, .i32⟩
  | 62 => ⟨S2299964, .i32⟩
  | 63 => ⟨S2299964x1, .i32⟩
  | 64 => ⟨S2299964x100, .f32⟩
  | 65 => ⟨S2299964x100, .f32⟩
  | 66 => ⟨S2299964x100, .f32⟩
  | 67 => ⟨S_, .f32⟩
  | 68 => ⟨S300000x100, .f32⟩
  | 69 => ⟨S2299964x1, .i32⟩
  | 70 => ⟨S300000x100, .f32⟩
  | 71 => ⟨S300000x100, .f32⟩
  | 72 => ⟨S2299964x1, .f32⟩
  | 73 => ⟨S_, .i32⟩
  | 74 => ⟨S2299964, .i32⟩
  | 75 => ⟨S2299964, .i1⟩
  | 76 => ⟨S_, .i32⟩
  | 77 => ⟨S2299964, .i32⟩
  | 78 => ⟨S2299964, .i32⟩
  | 79 => ⟨S2299964, .i32⟩
  | 80 => ⟨S2299964x1, .i32⟩
  | 81 => ⟨S2299964x100, .f32⟩
  | 82 => ⟨S2299964x100, .f32⟩
  | 83 => ⟨S2299964x100, .f32⟩
  | 84 => ⟨S_, .f32⟩
  | 85 => ⟨S300000x100, .f32⟩
  | 86 => ⟨S2299964x1, .i32⟩
  | 87 => ⟨S300000x100, .f32⟩
  | 88 => ⟨S300000x100, .f32⟩
  | 89 => ⟨S_, .f32⟩
  | 90 => ⟨S300000x100, .f32⟩
  | 91 => ⟨S300000x100, .f32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S16384x100, .f32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S16384x100, .f32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S_, .i32⟩
  | 118 => ⟨S16384, .i32⟩
  | 119 => ⟨S16384, .i32⟩
  | 120 => ⟨S16384x1, .i32⟩
  | 121 => ⟨S16384x1, .i32⟩
  | 122 => ⟨S16384x2, .i32⟩
  | 123 => ⟨S16384, .f32⟩
  | 124 => ⟨S_, .i32⟩
  | 125 => ⟨S16384, .i32⟩
  | 126 => ⟨S16384, .i1⟩
  | 127 => ⟨S_, .i32⟩
  | _ => ⟨S16384, .i32⟩

abbrev hbmTy0_1 (i : Nat) : BufTy := match i % 128 with
  | 0 => ⟨S16384, .i32⟩
  | 1 => ⟨S16384, .i32⟩
  | 2 => ⟨S16384, .i32⟩
  | 3 => ⟨S_, .i32⟩
  | 4 => ⟨S16384, .i32⟩
  | 5 => ⟨S16384, .i32⟩
  | 6 => ⟨S16384x1, .i32⟩
  | 7 => ⟨S16384x1, .i32⟩
  | 8 => ⟨S16384x2, .i32⟩
  | 9 => ⟨S16384, .f32⟩
  | 10 => ⟨S16384, .f32⟩
  | 11 => ⟨S100x128, .f32⟩
  | 12 => ⟨S100x128, .f32⟩
  | 13 => ⟨S1x128, .f32⟩
  | 14 => ⟨S1x64, .f32⟩
  | 15 => ⟨S1x32, .f32⟩
  | 16 => ⟨S1x1, .f32⟩
  | 17 => ⟨S1x32, .f32⟩
  | 18 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S2048x100, .f32⟩
  | .local _ .vmem, ⟨1, _⟩ => ⟨S2048x100, .f32⟩
  | .local _ .vmem, ⟨2, _⟩ => ⟨S2048x100, .f32⟩
  | .local _ .vmem, ⟨3, _⟩ => ⟨S2048x100, .f32⟩
  | .local _ .vmem, ⟨4, _⟩ => ⟨S2048, .f32⟩
  | .local _ .vmem, ⟨5, _⟩ => ⟨S2048, .f32⟩
  | .local _ .vmem, ⟨6, _⟩ => ⟨S100x128, .f32⟩
  | .local _ .vmem, ⟨7, _⟩ => ⟨S100x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S64x32, .f32⟩
  | .local _ .vmem, ⟨12, _⟩ => ⟨S1x32, .f32⟩
  | .local _ .vmem, ⟨13, _⟩ => ⟨S1x32, .f32⟩
  | .local _ .vmem, ⟨14, _⟩ => ⟨S1x1, .f32⟩
  | .local _ .vmem, ⟨15, _⟩ => ⟨S2048, .f32⟩
  | .local _ .vmem, ⟨16, _⟩ => ⟨S2048, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_8 : Ref sig .tc := ⟨.hbm, 73, rfl⟩
abbrev main_v46 : Ref sig .tc := ⟨.hbm, 74, rfl⟩
abbrev main_v47 : Ref sig .tc := ⟨.hbm, 75, rfl⟩
abbrev main_c_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_14 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_v75 : Ref sig .tc := ⟨.hbm, 111, rfl⟩
abbrev main_v76 : Ref sig .tc := ⟨.hbm, 112, rfl⟩
abbrev main_c_17 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_18 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_19 : Ref sig .tc := ⟨.hbm, 124, rfl⟩
abbrev main_v86 : Ref sig .tc := ⟨.hbm, 125, rfl⟩
abbrev main_v87 : Ref sig .tc := ⟨.hbm, 126, rfl⟩
abbrev main_c_20 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_21 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S16384 : S_.BroadcastsInDim S16384 (![] : Fin 0 → Fin S16384.rank)
  concatenates_S200000x100_S100000x100_S300000x100_d0 : Shape.Concatenates [S200000x100, S100000x100] S300000x100 0
  bcast_S2299964_S2299964x1_0 : S2299964.BroadcastsInDim S2299964x1 (![0] : Fin 1 → Fin S2299964x1.rank)
  bcast_S_S2299964 : S_.BroadcastsInDim S2299964 (![] : Fin 0 → Fin S2299964.rank)
  bcast_S2299964x1_S2299964x100_0_1 : S2299964x1.BroadcastsInDim S2299964x100 (![0, 1] : Fin 2 → Fin S2299964x100.rank)
  bcast_S_S300000x100 : S_.BroadcastsInDim S300000x100 (![] : Fin 0 → Fin S300000x100.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  slices_S200x128_S100x128_0_0 : S200x128.Slices ![0, 0] S100x128
  slices_S200x128_S100x128_100_0 : S200x128.Slices ![100, 0] S100x128
  shapeCasts_S128_S1x128 : S128.ShapeCasts S1x128
  shapeCasts_S64_S1x64 : S64.ShapeCasts S1x64
  shapeCasts_S32_S1x32 : S32.ShapeCasts S1x32
  shapeCasts_S1_S1x1 : S1.ShapeCasts S1x1
  shapeCasts_S32x1_S1x32 : S32x1.ShapeCasts S1x32
  inb_S2048x100_S2048x100_0_0 : ∀ a, (![0, 0] : Fin 2 → Nat) a + S2048x100.size a ≤ S2048x100.size a
  h_S2048x100 : 0 < S2048x100.numel
  shapeCasts_S2048x100_S2048x100 : S2048x100.ShapeCasts S2048x100
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S2048x32_S2048 : S2048x32.Reduces [1] S2048
  inpos_S1x1_p0_0 : ∀ a, (![0, 0] : Fin 2 → Nat) a < S1x1.size a
  inb_S2048_S2048_0 : ∀ a, (![0] : Fin 1 → Nat) a + S2048.size a ≤ S2048.size a
  h_S2048 : 0 < S2048.numel
  shapeCasts_S2048_S2048 : S2048.ShapeCasts S2048
  gather_S300000x100_S2299964x1_S2299964x100_1_0_n_n_0_1_1100_wf : GatherDims.WF S300000x100 S2299964x1 S2299964x100 [1] [0] [] [0] [] 1 ![1, 100]
  scatter_S300000x100_S2299964x1_S2299964x100_1_0_0_1_wf : ScatterDims.WF S300000x100 S2299964x1 S2299964x100 [1] [0] [0] 1
  gather_S300000x100_S16384x1_S16384x100_1_0_n_n_0_1_1100_wf : GatherDims.WF S300000x100 S16384x1 S16384x100 [1] [0] [] [0] [] 1 ![1, 100]
  gather_S200000x1_S16384x2_S16384_n_01_n_n_01_1_11_wf : GatherDims.WF S200000x1 S16384x2 S16384 [] [0, 1] [] [0, 1] [] 1 ![1, 1]
  gather_S300000x1_S16384x2_S16384_n_01_n_n_01_1_11_wf : GatherDims.WF S300000x1 S16384x2 S16384 [] [0, 1] [] [0, 1] [] 1 ![1, 1]
  dot_S2048x100_S100x128_S2048x128_1_0_0_1_n_n_wf : DotDims.WF S2048x100 S100x128 S2048x128 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x100.size a ≤ S16384x100.size a
  hwx0_0 : ∀ i : grid0.Coords, EltTy.bits .f32 = 32 ∨ (Rect.block (s := S16384x100) S2048x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x100.size a ≤ S16384x100.size a
  hwx0_1 : ∀ i : grid0.Coords, EltTy.bits .f32 = 32 ∨ (Rect.block (s := S16384x100) S2048x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S16384.size a
  hwx0_2 : ∀ i : grid0.Coords, EltTy.bits .f32 = 32 ∨ (Rect.block (s := S16384) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x128.size a ≤ S100x128.size a
  hwx0_3 : ∀ i : grid0.Coords, EltTy.bits .f32 = 32 ∨ (Rect.block (s := S100x128) S100x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x128.size a ≤ S100x128.size a
  hwx0_4 : ∀ i : grid0.Coords, EltTy.bits .f32 = 32 ∨ (Rect.block (s := S100x128) S100x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .f32 = 32 ∨ (Rect.block (s := S64x32) S64x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048.size a ≤ S16384.size a
  hwx0_12 : ∀ i : grid0.Coords, EltTy.bits .f32 = 32 ∨ (Rect.block (s := S16384) S2048.size (cc0_transform_12 i) (hinb0_12 i)).WholeWords (EltTy.packing .f32)

variable [Facts₀]

def gather_S300000x100_S2299964x1_S2299964x100_1_0_n_n_0_1_1100 : GatherDims S300000x100 S2299964x1 S2299964x100 where
  offsetDims := [1]
  collapsedSliceDims := [0]
  operandBatchingDims := []
  startIndicesBatchingDims := []
  startIndexMap := [0]
  indexVectorDim := 1
  sliceSizes := ![1, 100]
  wf := gather_S300000x100_S2299964x1_S2299964x100_1_0_n_n_0_1_1100_wf
def scatter_S300000x100_S2299964x1_S2299964x100_1_0_0_1 : ScatterDims S300000x100 S2299964x1 S2299964x100 where
  updateWindowDims := [1]
  insertedWindowDims := [0]
  scatterDimsToOperandDims := [0]
  indexVectorDim := 1
  wf := scatter_S300000x100_S2299964x1_S2299964x100_1_0_0_1_wf
def gather_S300000x100_S16384x1_S16384x100_1_0_n_n_0_1_1100 : GatherDims S300000x100 S16384x1 S16384x100 where
  offsetDims := [1]
  collapsedSliceDims := [0]
  operandBatchingDims := []
  startIndicesBatchingDims := []
  startIndexMap := [0]
  indexVectorDim := 1
  sliceSizes := ![1, 100]
  wf := gather_S300000x100_S16384x1_S16384x100_1_0_n_n_0_1_1100_wf
def gather_S200000x1_S16384x2_S16384_n_01_n_n_01_1_11 : GatherDims S200000x1 S16384x2 S16384 where
  offsetDims := []
  collapsedSliceDims := [0, 1]
  operandBatchingDims := []
  startIndicesBatchingDims := []
  startIndexMap := [0, 1]
  indexVectorDim := 1
  sliceSizes := ![1, 1]
  wf := gather_S200000x1_S16384x2_S16384_n_01_n_n_01_1_11_wf
def gather_S300000x1_S16384x2_S16384_n_01_n_n_01_1_11 : GatherDims S300000x1 S16384x2 S16384 where
  offsetDims := []
  collapsedSliceDims := [0, 1]
  operandBatchingDims := []
  startIndicesBatchingDims := []
  startIndexMap := [0, 1]
  indexVectorDim := 1
  sliceSizes := ![1, 1]
  wf := gather_S300000x1_S16384x2_S16384_n_01_n_n_01_1_11_wf
def dot_S2048x100_S100x128_S2048x128_1_0_0_1_n_n : DotDims S2048x100 S100x128 S2048x128 where
  lhsContracting := [1]
  rhsContracting := [0]
  lhsNonContracting := [0]
  rhsNonContracting := [1]
  lhsBatch := []
  rhsBatch := []
  wf := dot_S2048x100_S100x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf

abbrev win0_0 : Pipeline.Window sig grid0 :=
  Pipeline.Window.ofSpec (Memref.whole main_v67) S2048x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S2048x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v97) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v98) S100x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v99) S100x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v100) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v101) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S64x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v102) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v104) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v103) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v105) S2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384 : Shape := ⟨1, ![16384]⟩
abbrev S2299964 : Shape := ⟨1, ![2299964]⟩
abbrev S200000x100 : Shape := ⟨2, ![200000, 100]⟩
abbrev S100000x100 : Shape := ⟨2, ![100000, 100]⟩
abbrev S200x128 : Shape := ⟨2, ![200, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S200000x1 : Shape := ⟨2, ![200000, 1]⟩
abbrev S300000x1 : Shape := ⟨2, ![300000, 1]⟩
abbrev S_ : Shape := ⟨0, ![]⟩
abbrev S300000x100 : Shape := ⟨2, ![300000, 100]⟩
abbrev S2299964x1 : Shape := ⟨2, ![2299964, 1]⟩
abbrev S2299964x100 : Shape := ⟨2, ![2299964, 100]⟩
abbrev S16384x1 : Shape := ⟨2, ![16384, 1]⟩
abbrev S16384x100 : Shape := ⟨2, ![16384, 100]⟩
abbrev S16384x200 : Shape := ⟨2, ![16384, 200]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S1x1 : Shape := ⟨2, ![1, 1]⟩
abbrev S16384x2 : Shape := ⟨2, ![16384, 2]⟩

abbrev nBuf : Space → Nat
  | .hbm => 161
  | .vmem => 0
  | .smem => 0
  | _ => 0

abbrev hbmTy0_0 (i : Nat) : BufTy := match i % 128 with
  | 0 => ⟨S16384, .i32⟩
  | 1 => ⟨S16384, .i32⟩
  | 2 => ⟨S2299964, .i32⟩
  | 3 => ⟨S2299964, .i32⟩
  | 4 => ⟨S2299964, .f32⟩
  | 5 => ⟨S200000x100, .f32⟩
  | 6 => ⟨S100000x100, .f32⟩
  | 7 => ⟨S200x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S200000x1, .f32⟩
  | 16 => ⟨S300000x1, .f32⟩
  | 17 => ⟨S_, .i32⟩
  | 18 => ⟨S16384, .i32⟩
  | 19 => ⟨S16384, .i32⟩
  | 20 => ⟨S300000x100, .f32⟩
  | 21 => ⟨S2299964x1, .f32⟩
  | 22 => ⟨S_, .i32⟩
  | 23 => ⟨S2299964, .i32⟩
  | 24 => ⟨S2299964, .i1⟩
  | 25 => ⟨S_, .i32⟩
  | 26 => ⟨S2299964, .i32⟩
  | 27 => ⟨S2299964, .i32⟩
  | 28 => ⟨S2299964, .i32⟩
  | 29 => ⟨S2299964x1, .i32⟩
  | 30 => ⟨S2299964x100, .f32⟩
  | 31 => ⟨S2299964x100, .f32⟩
  | 32 => ⟨S2299964x100, .f32⟩
  | 33 => ⟨S_, .f32⟩
  | 34 => ⟨S300000x100, .f32⟩
  | 35 => ⟨S2299964x1, .i32⟩
  | 36 => ⟨S300000x100, .f32⟩
  | 37 => ⟨S300000x100, .f32⟩
  | 38 => ⟨S2299964x1, .f32⟩
  | 39 => ⟨S_, .i32⟩
  | 40 => ⟨S2299964, .i32⟩
  | 41 => ⟨S2299964, .i1⟩
  | 42 => ⟨S_, .i32⟩
  | 43 => ⟨S2299964, .i32⟩
  | 44 => ⟨S2299964, .i32⟩
  | 45 => ⟨S2299964, .i32⟩
  | 46 => ⟨S2299964x1, .i32⟩
  | 47 => ⟨S2299964x100, .f32⟩
  | 48 => ⟨S2299964x100, .f32⟩
  | 49 => ⟨S2299964x100, .f32⟩
  | 50 => ⟨S_, .f32⟩
  | 51 => ⟨S300000x100, .f32⟩
  | 52 => ⟨S2299964x1, .i32⟩
  | 53 => ⟨S300000x100, .f32⟩
  | 54 => ⟨S300000x100, .f32⟩
  | 55 => ⟨S2299964x1, .f32⟩
  | 56 => ⟨S_, .i32⟩
  | 57 => ⟨S2299964, .i32⟩
  | 58 => ⟨S2299964, .i1⟩
  | 59 => ⟨S_, .i32⟩
  | 60 => ⟨S2299964, .i32⟩
  | 61 => ⟨S2299964, .i32⟩
  | 62 => ⟨S2299964, .i32⟩
  | 63 => ⟨S2299964x1, .i32⟩
  | 64 => ⟨S2299964x100, .f32⟩
  | 65 => ⟨S2299964x100, .f32⟩
  | 66 => ⟨S2299964x100, .f32⟩
  | 67 => ⟨S_, .f32⟩
  | 68 => ⟨S300000x100, .f32⟩
  | 69 => ⟨S2299964x1, .i32⟩
  | 70 => ⟨S300000x100, .f32⟩
  | 71 => ⟨S300000x100, .f32⟩
  | 72 => ⟨S2299964x1, .f32⟩
  | 73 => ⟨S_, .i32⟩
  | 74 => ⟨S2299964, .i32⟩
  | 75 => ⟨S2299964, .i1⟩
  | 76 => ⟨S_, .i32⟩
  | 77 => ⟨S2299964, .i32⟩
  | 78 => ⟨S2299964, .i32⟩
  | 79 => ⟨S2299964, .i32⟩
  | 80 => ⟨S2299964x1, .i32⟩
  | 81 => ⟨S2299964x100, .f32⟩
  | 82 => ⟨S2299964x100, .f32⟩
  | 83 => ⟨S2299964x100, .f32⟩
  | 84 => ⟨S_, .f32⟩
  | 85 => ⟨S300000x100, .f32⟩
  | 86 => ⟨S2299964x1, .i32⟩
  | 87 => ⟨S300000x100, .f32⟩
  | 88 => ⟨S300000x100, .f32⟩
  | 89 => ⟨S_, .f32⟩
  | 90 => ⟨S300000x100, .f32⟩
  | 91 => ⟨S300000x100, .f32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S16384x100, .f32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S16384x100, .f32⟩
  | 110 => ⟨S16384x200, .f32⟩
  | 111 => ⟨S16384x128, .f32⟩
  | 112 => ⟨S1x128, .f32⟩
  | 113 => ⟨S16384x128, .f32⟩
  | 114 => ⟨S16384x128, .f32⟩
  | 115 => ⟨S_, .f32⟩
  | 116 => ⟨S16384x128, .f32⟩
  | 117 => ⟨S16384x128, .f32⟩
  | 118 => ⟨S16384x64, .f32⟩
  | 119 => ⟨S1x64, .f32⟩
  | 120 => ⟨S16384x64, .f32⟩
  | 121 => ⟨S16384x64, .f32⟩
  | 122 => ⟨S16384x32, .f32⟩
  | 123 => ⟨S1x32, .f32⟩
  | 124 => ⟨S16384x32, .f32⟩
  | 125 => ⟨S16384x32, .f32⟩
  | 126 => ⟨S16384x1, .f32⟩
  | 127 => ⟨S1x1, .f32⟩
  | _ => ⟨S16384, .i32⟩

abbrev hbmTy0_1 (i : Nat) : BufTy := match i % 128 with
  | 0 => ⟨S16384x1, .f32⟩
  | 1 => ⟨S16384x1, .f32⟩
  | 2 => ⟨S_, .i32⟩
  | 3 => ⟨S16384, .i32⟩
  | 4 => ⟨S16384, .i1⟩
  | 5 => ⟨S_, .i32⟩
  | 6 => ⟨S16384, .i32⟩
  | 7 => ⟨S16384, .i32⟩
  | 8 => ⟨S16384, .i32⟩
  | 9 => ⟨S_, .i32⟩
  | 10 => ⟨S16384, .i32⟩
  | 11 => ⟨S16384, .i32⟩
  | 12 => ⟨S16384x1, .i32⟩
  | 13 => ⟨S16384x1, .i32⟩
  | 14 => ⟨S16384x2, .i32⟩
  | 15 => ⟨S16384, .f32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S_, .i32⟩
  | 24 => ⟨S16384, .i32⟩
  | 25 => ⟨S16384, .i32⟩
  | 26 => ⟨S16384x1, .i32⟩
  | 27 => ⟨S16384x1, .i32⟩
  | 28 => ⟨S16384x2, .i32⟩
  | 29 => ⟨S16384, .f32⟩
  | 30 => ⟨S16384, .f32⟩
  | 31 => ⟨S16384, .f32⟩
  | 32 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_8 : Ref sig .tc := ⟨.hbm, 73, rfl⟩
abbrev main_v46 : Ref sig .tc := ⟨.hbm, 74, rfl⟩
abbrev main_v47 : Ref sig .tc := ⟨.hbm, 75, rfl⟩
abbrev main_c_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_14 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call0_cst : Ref sig .tc := ⟨.hbm, 115, rfl⟩
abbrev main_call0_v0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_16 : Ref sig .tc := ⟨.hbm, 130, rfl⟩
abbrev main_v93 : Ref sig .tc := ⟨.hbm, 131, rfl⟩
abbrev main_v94 : Ref sig .tc := ⟨.hbm, 132, rfl⟩
abbrev main_c_17 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_18 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_19 : Ref sig .tc := ⟨.hbm, 144, rfl⟩
abbrev main_v104 : Ref sig .tc := ⟨.hbm, 145, rfl⟩
abbrev main_v105 : Ref sig .tc := ⟨.hbm, 146, rfl⟩
abbrev main_c_20 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_21 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  concatenates_S200000x100_S100000x100_S300000x100_d0 : Shape.Concatenates [S200000x100, S100000x100] S300000x100 0
  bcast_S2299964_S2299964x1_0 : S2299964.BroadcastsInDim S2299964x1 (![0] : Fin 1 → Fin S2299964x1.rank)
  bcast_S_S2299964 : S_.BroadcastsInDim S2299964 (![] : Fin 0 → Fin S2299964.rank)
  bcast_S2299964x1_S2299964x100_0_1 : S2299964x1.BroadcastsInDim S2299964x100 (![0, 1] : Fin 2 → Fin S2299964x100.rank)
  bcast_S_S300000x100 : S_.BroadcastsInDim S300000x100 (![] : Fin 0 → Fin S300000x100.rank)
  bcast_S16384_S16384x1_0 : S16384.BroadcastsInDim S16384x1 (![0] : Fin 1 → Fin S16384x1.rank)
  concatenates_S16384x100_S16384x100_S16384x200_d1 : Shape.Concatenates [S16384x100, S16384x100] S16384x200 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  concatenates_S16384x1_S16384x1_S16384x2_d1 : Shape.Concatenates [S16384x1, S16384x1] S16384x2 1
  shapeCasts_S16384x1_S16384 : S16384x1.ShapeCasts S16384
  gather_S300000x100_S2299964x1_S2299964x100_1_0_n_n_0_1_1100_wf : GatherDims.WF S300000x100 S2299964x1 S2299964x100 [1] [0] [] [0] [] 1 ![1, 100]
  scatter_S300000x100_S2299964x1_S2299964x100_1_0_0_1_wf : ScatterDims.WF S300000x100 S2299964x1 S2299964x100 [1] [0] [0] 1
  gather_S300000x100_S16384x1_S16384x100_1_0_n_n_0_1_1100_wf : GatherDims.WF S300000x100 S16384x1 S16384x100 [1] [0] [] [0] [] 1 ![1, 100]
  dot_S16384x200_S200x128_S16384x128_1_0_0_1_n_n_wf : DotDims.WF S16384x200 S200x128 S16384x128 [1] [0] [0] [1] [] []
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []
  gather_S200000x1_S16384x2_S16384_n_01_n_n_01_1_11_wf : GatherDims.WF S200000x1 S16384x2 S16384 [] [0, 1] [] [0, 1] [] 1 ![1, 1]
  gather_S300000x1_S16384x2_S16384_n_01_n_n_01_1_11_wf : GatherDims.WF S300000x1 S16384x2 S16384 [] [0, 1] [] [0, 1] [] 1 ![1, 1]

variable [Facts₀]

def gather_S300000x100_S2299964x1_S2299964x100_1_0_n_n_0_1_1100 : GatherDims S300000x100 S2299964x1 S2299964x100 where
  offsetDims := [1]
  collapsedSliceDims := [0]
  operandBatchingDims := []
  startIndicesBatchingDims := []
  startIndexMap := [0]
  indexVectorDim := 1
  sliceSizes := ![1, 100]
  wf := gather_S300000x100_S2299964x1_S2299964x100_1_0_n_n_0_1_1100_wf
def scatter_S300000x100_S2299964x1_S2299964x100_1_0_0_1 : ScatterDims S300000x100 S2299964x1 S2299964x100 where
  updateWindowDims := [1]
  insertedWindowDims := [0]
  scatterDimsToOperandDims := [0]
  indexVectorDim := 1
  wf := scatter_S300000x100_S2299964x1_S2299964x100_1_0_0_1_wf
def gather_S300000x100_S16384x1_S16384x100_1_0_n_n_0_1_1100 : GatherDims S300000x100 S16384x1 S16384x100 where
  offsetDims := [1]
  collapsedSliceDims := [0]
  operandBatchingDims := []
  startIndicesBatchingDims := []
  startIndexMap := [0]
  indexVectorDim := 1
  sliceSizes := ![1, 100]
  wf := gather_S300000x100_S16384x1_S16384x100_1_0_n_n_0_1_1100_wf
def dot_S16384x200_S200x128_S16384x128_1_0_0_1_n_n : DotDims S16384x200 S200x128 S16384x128 where
  lhsContracting := [1]
  rhsContracting := [0]
  lhsNonContracting := [0]
  rhsNonContracting := [1]
  lhsBatch := []
  rhsBatch := []
  wf := dot_S16384x200_S200x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf
def gather_S200000x1_S16384x2_S16384_n_01_n_n_01_1_11 : GatherDims S200000x1 S16384x2 S16384 where
  offsetDims := []
  collapsedSliceDims := [0, 1]
  operandBatchingDims := []
  startIndicesBatchingDims := []
  startIndexMap := [0, 1]
  indexVectorDim := 1
  sliceSizes := ![1, 1]
  wf := gather_S200000x1_S16384x2_S16384_n_01_n_n_01_1_11_wf
def gather_S300000x1_S16384x2_S16384_n_01_n_n_01_1_11 : GatherDims S300000x1 S16384x2 S16384 where
  offsetDims := []
  collapsedSliceDims := [0, 1]
  operandBatchingDims := []
  startIndicesBatchingDims := []
  startIndexMap := [0, 1]
  indexVectorDim := 1
  sliceSizes := ![1, 1]
  wf := gather_S300000x1_S16384x2_S16384_n_01_n_n_01_1_11_wf

class Facts : Prop extends Facts₀ where

variable [Facts]
-- ==== Proof.LibCat2.lean ====
/-
  A two-piece concatenation as a function of its two operands.

  `concatenate` takes its pieces as a LIST of shape–array pairs. A simplifier pass that computes what a buffer holds after
  a line of host operations rewrites inside the arguments of an operation's function, but not inside such a list, so the
  operands of a concatenation of COMPUTED arrays stay unevaluated folds, and a closing comparison has to evaluate them by
  unfolding, which can take minutes or run out of recursion depth. `cat2` names the two operands as plain arguments:
  rewriting a two-piece `concatenate` to `cat2` (`cat2_eq`, in the same pass) lets the pass go on into both operands;
  `cat2` unfolds back to the `concatenate` by definition.
-/
import Idealize.ShloMosaic.PureOps.ShapeOps

namespace Cert.LibCat2

open Idealize.ShloMosaic

/-- Two arrays joined along axis `a`, as a function of the two. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece concatenation is `cat2` of its operands. -/
theorem cat2_eq {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

end Cert.LibCat2
-- ==== Proof.Spec.lean ====
/-
  One batch row of the scoring head, as plain arithmetic on the extended reals.

  A row carries two 100-vectors, `u` (the user node's propagated embedding) and `v` (the item node's). The head is
    h₁ i = max ((∑ a, u a · Wu a i + ∑ a, v a · Wi a i) + b₁ i) 0          (128 hidden units)
    h₂ j = (∑ i, h₁ i · W₄ i j) + b₄ j                                      (64)
    h₃ k = (∑ j, h₂ j · W₂ j k) + b₂ k                                      (32)
    out  = ((∑ k, h₃ k · w₃ k) + b₃) + bias
  where `Wu` and `Wi` are the upper and lower hundred rows of the first layer's 200 × 128 matrix. The first layer may
  also be written with ONE sum over the 200 entries of the row `u` followed by `v`: a finite sum over `Fin (100 + 100)`
  splits into the sum over the first hundred and the sum over the last hundred, which holds in any commutative
  additive monoid, the extended reals included (no finiteness is needed: only the grouping of a sum changes); that law is
  in `Halves`.
-/
import Idealize.ShloMosaic.PureOps.Ideal
import Mathlib.Algebra.BigOperators.Fin

noncomputable section

open scoped BigOperators

namespace Cert.Mlp

open Idealize.ShloMosaic

/-- The value of the all-zero f32 word: the floor of the first hidden layer. -/
abbrev zero : EReal := Ideal.ofBits .f32 0x00000000#32

/-- The first hidden layer of one row, the two halves of the first matrix applied to the two embeddings separately. -/
def row1 (u v : Fin 100 → EReal) (Wu Wi : Fin 100 → Fin 128 → EReal) (b1 : Fin 128 → EReal) (i : Fin 128) : EReal :=
  max (((∑ a : Fin 100, u a * Wu a i) + (∑ a : Fin 100, v a * Wi a i)) + b1 i) zero

/-- The second hidden layer of one row. -/
def row2 (h : Fin 128 → EReal) (W4 : Fin 128 → Fin 64 → EReal) (b4 : Fin 64 → EReal) (j : Fin 64) : EReal :=
  (∑ i : Fin 128, h i * W4 i j) + b4 j

/-- The third hidden layer of one row. -/
def row3 (h : Fin 64 → EReal) (W2 : Fin 64 → Fin 32 → EReal) (b2 : Fin 32 → EReal) (k : Fin 32) : EReal :=
  (∑ j : Fin 64, h j * W2 j k) + b2 k

/-- The score of one row: the last layer's inner product, its bias, then the row's user-plus-item bias. -/
def rowOut (h : Fin 32 → EReal) (w3 : Fin 32 → EReal) (b3 bias : EReal) : EReal :=
  ((∑ k : Fin 32, h k * w3 k) + b3) + bias

/-- The whole head on one row. -/
def score (u v : Fin 100 → EReal) (Wu Wi : Fin 100 → Fin 128 → EReal) (b1 : Fin 128 → EReal)
    (W4 : Fin 128 → Fin 64 → EReal) (b4 : Fin 64 → EReal) (W2 : Fin 64 → Fin 32 → EReal) (b2 : Fin 32 → EReal)
    (w3 : Fin 32 → EReal) (b3 bias : EReal) : EReal :=
  rowOut (row3 (row2 (row1 u v Wu Wi b1) W4 b4) W2 b2) w3 b3 bias

/-- The head depends on its inputs only through their values: inputs that agree entry by entry give the same score. -/
theorem score_congr {u u' v v' : Fin 100 → EReal} {Wu Wu' Wi Wi' : Fin 100 → Fin 128 → EReal} {b1 b1' : Fin 128 → EReal}
    {W4 W4' : Fin 128 → Fin 64 → EReal} {b4 b4' : Fin 64 → EReal} {W2 W2' : Fin 64 → Fin 32 → EReal} {b2 b2' : Fin 32 → EReal}
    {w3 w3' : Fin 32 → EReal} {b3 b3' bias bias' : EReal}
    (hu : ∀ a, u a = u' a) (hv : ∀ a, v a = v' a) (hWu : ∀ a i, Wu a i = Wu' a i) (hWi : ∀ a i, Wi a i = Wi' a i)
    (hb1 : ∀ i, b1 i = b1' i) (hW4 : ∀ i j, W4 i j = W4' i j) (hb4 : ∀ j, b4 j = b4' j) (hW2 : ∀ j k, W2 j k = W2' j k)
    (hb2 : ∀ k, b2 k = b2' k) (hw3 : ∀ k, w3 k = w3' k) (hb3 : b3 = b3') (hbias : bias = bias') :
    score u v Wu Wi b1 W4 b4 W2 b2 w3 b3 bias = score u' v' Wu' Wi' b1' W4' b4' W2' b2' w3' b3' bias' := by
  obtain rfl : u = u' := funext hu
  obtain rfl : v = v' := funext hv
  obtain rfl : Wu = Wu' := funext fun a => funext (hWu a)
  obtain rfl : Wi = Wi' := funext fun a => funext (hWi a)
  obtain rfl : b1 = b1' := funext hb1
  obtain rfl : W4 = W4' := funext fun i => funext (hW4 i)
  obtain rfl : b4 = b4' := funext hb4
  obtain rfl : W2 = W2' := funext fun j => funext (hW2 j)
  obtain rfl : b2 = b2' := funext hb2
  obtain rfl : w3 = w3' := funext hw3
  subst hb3 hbias
  rfl

end Cert.Mlp

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.LibRow2.lean ====
/-
  Rows of an `[a, b]` array at the ideal values, read at an index, and the unit axis of a `[1, a, b]` block.

  * a maximum-reduction of an `[a, b]` array along its last axis is, at row `r`, the fold of `max` from the accumulator's
    value over the `b` entries of the row; an add-reduction is the sum of the row's entries;
  * a `[1, a, b]` array cast to `[a, b]` reads, at `(p, s)`, the array at `(0, p, s)`, and an `[a, b]` array cast to
    `[1, a, b]` reads, at `(u, p, s)`, the array at `(p, s)`: the row-major positions agree, the unit axis weighing nothing.
-/
import Idealize.ShloMosaic.PureOps.Reduce
import Idealize.ShloMosaic.PureOps.Ideal.Laws
import Idealize.ShloMosaic.Lib.ValueIdx
import Idealize.ShloMosaic.Lib.Pipeline.Value

noncomputable section

open scoped BigOperators

namespace Cert.LibRow2

open Idealize.ShloMosaic Idealize.ShloMosaic.ValueIdx

variable {a b : Nat}

/-- The reduced index `r` with the coordinate `k` put back on the last axis is `(r, k)`. -/
theorem lift_last (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A maximum-reduction along the last axis, at row `r`: the fold of `max` from the accumulator's value over the row. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_last h r k)
  exact congrArg (fun f => Finset.fold max (Ideal.ofBits φ acc) f (Finset.univ : Finset (Fin b))) hf

/-- An add-reduction along the last axis, at row `r`: the sum of the row. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- The f32 word of −∞ is the bottom of the extended reals. -/
theorem ofBits_neg_inf_f32 : Ideal.ofBits .f32 0xFF800000#32 = (⊥ : EReal) := by
  simp [Ideal.ofBits, Ideal.ieee]

variable {α : Type}

/-- A `[1, a, b]` array cast to `[a, b]` reads, at `(p, s)`, the array at `(0, p, s)`. -/
theorem dropUnit_apply (x : (⟨3, ![1, a, b]⟩ : Shape).Idx → α) (h : (⟨3, ![1, a, b]⟩ : Shape).ShapeCasts ⟨2, ![a, b]⟩)
    (p : Fin a) (s : Fin b) : shapeCast ⟨2, ![a, b]⟩ x h (ix2 p s) = x (ix3 (0 : Fin 1) p s) :=
  shapeCast_apply x h _ _ (by
    rw [Shape.rowMajor_val_three, Shape.rowMajor_val_two]
    show ((0 : ℕ) * a + p.val) * b + s.val = p.val * b + s.val
    rw [Nat.zero_mul, Nat.zero_add])

/-- An `[a, b]` array cast to `[1, a, b]` reads, at `(u, p, s)`, the array at `(p, s)`. -/
theorem addUnit_apply (x : (⟨2, ![a, b]⟩ : Shape).Idx → α) (h : (⟨2, ![a, b]⟩ : Shape).ShapeCasts ⟨3, ![1, a, b]⟩)
    (u : Fin 1) (p : Fin a) (s : Fin b) : shapeCast ⟨3, ![1, a, b]⟩ x h (ix3 u p s) = x (ix2 p s) :=
  shapeCast_apply x h _ _ (by
    have hu : u.val = 0 := by omega
    rw [Shape.rowMajor_val_two, Shape.rowMajor_val_three]
    show p.val * b + s.val = (u.val * a + p.val) * b + s.val
    rw [hu, Nat.zero_mul, Nat.zero_add])

end Cert.LibRow2

end
-- ==== Proof.KernelBody.lean ====
/-
  The kernel body's arithmetic at an index: what the body stores into a block of scores is, at row `p` of the block,
  the scoring head of `Spec` applied to row `p` of the two embedding blocks.

  The body forms, on a block of 2048 rows: the first hidden layer as TWO matrix products — the user block by the upper
  hundred rows of the first matrix, the item block by the lower hundred — summed, biased and floored at zero; two more
  matrix products with their biases; then, in place of a last product with a 32 × 1 matrix, the row sum of the third
  layer times the last matrix laid out as a row; then the last bias and the block of per-row biases. Changes of float
  format are the identity at the ideal values, a matrix product into a zero accumulator is the plain sum of products, and a
  row sum from the zero word is the plain sum.
-/
import proofs.«428729_j68513318305793_3_alg».proof.Proof.Gen.KernelIdeal.Frame
import proofs.«428729_j68513318305793_3_alg».proof.Proof.Spec
import proofs.«428729_j68513318305793_3_alg».proof.Proof.LibDot
import proofs.«428729_j68513318305793_3_alg».proof.Proof.LibRow2
import Idealize.ShloMosaic.Lib.ValueLayout
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.TcCoe Idealize.ShloMosaic.ValueIdx

/-- The third layer's matrix product at `(p, k)`: the sum over the 64 units of the second layer (itself over the first)
    times the third matrix. -/
theorem pay2_apply (v0 v3 : Vec Ideal S2048x100 .f32) (v6 v9 : Vec Ideal S100x128 .f32) (v15 : Vec Ideal S1x128 .f32)
    (v22 : Vec Ideal S128x64 .f32) (v25 : Vec Ideal S1x64 .f32) (v30 : Vec Ideal S64x32 .f32) (p : Fin 2048) (k : Fin 32) :
    k0_pay2 (F := Ideal) v0 v3 v6 v9 v15 v22 v25 v30 (ix2 p k)
      = ∑ j : Fin 64, Mlp.row2 (Mlp.row1 (fun a => v0 (ix2 p a)) (fun a => v3 (ix2 p a)) (fun a i => v6 (ix2 a i))
          (fun a i => v9 (ix2 a i)) (fun i => v15 (ix2 (0 : Fin 1) i))) (fun i j => v22 (ix2 i j)) (fun j => v25 (ix2 (0 : Fin 1) j)) j
          * v30 (ix2 j k) := by
  unfold k0_pay2
  simp only [Mlp.row1, Mlp.row2, truncf_apply, addf_apply, maximumf_apply, broadcast_apply, shapeCast_self,
    broadcastTo_1b_ab_apply,
    LibDot.matmul_plain_apply dot_S2048x64_S64x32_S2048x32_1_0_0_1_n_n rfl rfl rfl rfl rfl rfl,
    LibDot.matmul_plain_apply dot_S2048x128_S128x64_S2048x64_1_0_0_1_n_n rfl rfl rfl rfl rfl rfl,
    LibDot.matmul_plain_apply dot_S2048x100_S100x128_S2048x128_1_0_0_1_n_n rfl rfl rfl rfl rfl rfl]
  rfl

/-- The third layer's bias, broadcast over the block's rows, at `(p, k)`. -/
theorem pay3_apply (v33 : Vec Ideal S1x32 .f32) (p : Fin 2048) (k : Fin 32) :
    k0_pay3 (F := Ideal) v33 (ix2 p k) = v33 (ix2 (0 : Fin 1) k) := by
  unfold k0_pay3
  simp only [shapeCast_self, broadcastTo_1b_ab_apply]

/-- The stored block at row `p`: the row sum of the third layer (product plus bias) times the last matrix's row, plus the
    last bias, plus the row's bias. -/
theorem pay1_apply (v32 v35 : FVec Ideal S2048x32 .f32) (v37 : Vec Ideal S1x32 .f32) (v39 : Vec Ideal S1x1 .f32)
    (v47 : Vec Ideal S2048 .f32) (p : Fin 2048) :
    k0_pay1 (F := Ideal) v32 v35 v37 v39 v47 (ix1 p)
      = ((∑ k : Fin 32, (v32 (ix2 p k) + v35 (ix2 p k)) * v37 (ix2 (0 : Fin 1) k)) + v39 (ix2 (0 : Fin 1) (0 : Fin 1))) + v47 (ix1 p) := by
  unfold k0_pay1
  simp only [addf_apply, broadcast_apply, shapeCast_self]
  have e0 : ∀ h, extractAt ![0, 0] v39 h = v39 (ix2 (0 : Fin 1) (0 : Fin 1)) := fun h =>
    congrArg v39 (funext fun a => by match a with | ⟨0, _⟩ => rfl | ⟨1, _⟩ => rfl)
  rw [e0]
  refine congrArg (· + v47 (ix1 p)) (congrArg (· + v39 (ix2 (0 : Fin 1) (0 : Fin 1))) ?_)
  refine (LibRow2.rowSum_apply _ _ _ _ _ p).trans ?_
  refine Finset.sum_congr rfl fun k _ => ?_
  simp only [mulf_apply, addf_apply, broadcastTo_1b_ab_apply]

end Cert.KernelIdeal.Body

end
-- ==== Proof.KernelValue.lean ====
/-
  The kernel's result array: entry `r` of the 16384 scores is the scoring head of `Spec` on row `r` of the gathered user
  rows and item rows, with the weights as the region finds them and the row's bias.

  The grid has eight points. Point `t` is handed rows `2048·t … 2048·t + 2047` of the user rows, of the item rows and of
  the bias vector, and every weight array whole (their index maps are constant), and writes back rows `2048·t …` of the
  result. The body's stored block at its row `p` is the head on row `p` of the two embedding blocks (`KernelBody`), and
  row `p` of a block is row `2048·t + p` of its array; the eight blocks tile the result, so the result array is the head row
  by row.
-/
import proofs.«428729_j68513318305793_3_alg».proof.Proof.Gen.KernelIdeal.Value
import proofs.«428729_j68513318305793_3_alg».proof.Proof.KernelBody
import Idealize.ShloMosaic.Lib.Pipeline.Value
import Idealize.ShloMosaic.Lib.Tactic

set_option maxRecDepth 16384

noncomputable section

open scoped BigOperators

namespace Cert.KernelIdeal.Scores

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- The body's result on a block, at row `p`: the head on row `p` of the two embedding blocks, the weight blocks whole. -/
theorem block_score (x0 x1 : Vec Ideal S2048x100 .f32) (x2 : Vec Ideal S2048 .f32) (x3 x4 : Vec Ideal S100x128 .f32)
    (x5 : Vec Ideal S1x128 .f32) (x6 : Vec Ideal S128x64 .f32) (x7 : Vec Ideal S1x64 .f32) (x8 : Vec Ideal S64x32 .f32)
    (x9 x10 : Vec Ideal S1x32 .f32) (x11 : Vec Ideal S1x1 .f32) (p : Fin 2048) :
    out0_12 (F := Ideal) x0 x1 x2 x3 x4 x5 x6 x7 x8 x9 x10 x11 (ix1 p)
      = Mlp.score (fun a => x0 (ix2 p a)) (fun a => x1 (ix2 p a)) (fun a i => x3 (ix2 a i)) (fun a i => x4 (ix2 a i))
          (fun i => x5 (ix2 (0 : Fin 1) i)) (fun i j => x6 (ix2 i j)) (fun j => x7 (ix2 (0 : Fin 1) j))
          (fun j k => x8 (ix2 j k)) (fun k => x9 (ix2 (0 : Fin 1) k)) (fun k => x10 (ix2 (0 : Fin 1) k))
          (x11 (ix2 (0 : Fin 1) (0 : Fin 1))) (x2 (ix1 p)) := by
  unfold out0_12
  rw [View.canon_unit_zero hz1]
  simp only [View.ld_unit_zero (S := S2048x100) hz2, View.ld_unit_zero (S := S100x128) hz2, View.ld_unit_zero (S := S1x128) hz2,
    View.ld_unit_zero (S := S128x64) hz2, View.ld_unit_zero (S := S1x64) hz2, View.ld_unit_zero (S := S64x32) hz2,
    View.ld_unit_zero (S := S1x32) hz2, View.ld_unit_zero (S := S1x1) hz2, View.ld_unit_zero (S := S2048) hz1]
  refine (Body.pay1_apply _ _ _ _ _ p).trans ?_
  unfold Mlp.score Mlp.rowOut Mlp.row3
  simp only [Body.pay2_apply, Body.pay3_apply]

/-- The same at any index of the block. -/
theorem block_score_idx (x0 x1 : Vec Ideal S2048x100 .f32) (x2 : Vec Ideal S2048 .f32) (x3 x4 : Vec Ideal S100x128 .f32)
    (x5 : Vec Ideal S1x128 .f32) (x6 : Vec Ideal S128x64 .f32) (x7 : Vec Ideal S1x64 .f32) (x8 : Vec Ideal S64x32 .f32)
    (x9 x10 : Vec Ideal S1x32 .f32) (x11 : Vec Ideal S1x1 .f32) (y : S2048.Idx) (p : Fin 2048) (hp : p.val = (y 0).val) :
    out0_12 (F := Ideal) x0 x1 x2 x3 x4 x5 x6 x7 x8 x9 x10 x11 y
      = Mlp.score (fun a => x0 (ix2 p a)) (fun a => x1 (ix2 p a)) (fun a i => x3 (ix2 a i)) (fun a i => x4 (ix2 a i))
          (fun i => x5 (ix2 (0 : Fin 1) i)) (fun i j => x6 (ix2 i j)) (fun j => x7 (ix2 (0 : Fin 1) j))
          (fun j k => x8 (ix2 j k)) (fun k => x9 (ix2 (0 : Fin 1) k)) (fun k => x10 (ix2 (0 : Fin 1) k))
          (x11 (ix2 (0 : Fin 1) (0 : Fin 1))) (x2 (ix1 p)) := by
  obtain rfl : y = ix1 p := by
    rw [eq_ix1 y]; exact congrArg ix1 (Fin.ext hp.symm)
  exact block_score x0 x1 x2 x3 x4 x5 x6 x7 x8 x9 x10 x11 p

variable (m : (ℓ : Loc nD τ sig) → Buf (Elt Ideal) ℓ) (ρ : Dev nD → PrngReg)

/-! ## The arrays the region finds, at their literal types -/

abbrev arrU (c : Dev nD) : Vec Ideal S16384x100 .f32 := V m c main_v67
abbrev arrI (c : Dev nD) : Vec Ideal S16384x100 .f32 := V m c main_v74
abbrev arrBias (c : Dev nD) : Vec Ideal S16384 .f32 := V m c main_v97
abbrev arrWu (c : Dev nD) : Vec Ideal S100x128 .f32 := V m c main_v98
abbrev arrWi (c : Dev nD) : Vec Ideal S100x128 .f32 := V m c main_v99
abbrev arrB1 (c : Dev nD) : Vec Ideal S1x128 .f32 := V m c main_v100
abbrev arrW4 (c : Dev nD) : Vec Ideal S128x64 .f32 := V m c main_arg9
abbrev arrB4 (c : Dev nD) : Vec Ideal S1x64 .f32 := V m c main_v101
abbrev arrW2 (c : Dev nD) : Vec Ideal S64x32 .f32 := V m c main_arg11
abbrev arrB2 (c : Dev nD) : Vec Ideal S1x32 .f32 := V m c main_v102
abbrev arrW3 (c : Dev nD) : Vec Ideal S1x32 .f32 := V m c main_v104
abbrev arrB3 (c : Dev nD) : Vec Ideal S1x1 .f32 := V m c main_v103

/-- The score of batch row `r`. -/
def rowScore (c : Dev nD) (r : Fin 16384) : EReal :=
  Mlp.score (fun a => arrU m c (ix2 r a)) (fun a => arrI m c (ix2 r a)) (fun a i => arrWu m c (ix2 a i))
    (fun a i => arrWi m c (ix2 a i)) (fun i => arrB1 m c (ix2 (0 : Fin 1) i)) (fun i j => arrW4 m c (ix2 i j))
    (fun j => arrB4 m c (ix2 (0 : Fin 1) j)) (fun j k => arrW2 m c (ix2 j k)) (fun k => arrB2 m c (ix2 (0 : Fin 1) k))
    (fun k => arrW3 m c (ix2 (0 : Fin 1) k)) (arrB3 m c (ix2 (0 : Fin 1) (0 : Fin 1))) (arrBias m c (ix1 r))

/-- The array of scores. -/
def scores (c : Dev nD) : Vec Ideal S16384 .f32 := fun i => rowScore m c ⟨(i 0).val, (i 0).isLt⟩

theorem scores_apply (c : Dev nD) (i : S16384.Idx) (r : Fin 16384) (hr : r.val = (i 0).val) : scores m c i = rowScore m c r := by
  obtain rfl : r = ⟨(i 0).val, (i 0).isLt⟩ := Fin.ext hr
  rfl

/-! ## The index maps over the grid -/

/-- The three row-blocked windows move with the result's block; the result's block index is the point's number. -/
theorem idx_rows : ∀ t : Fin cfg0.N,
    win0_0.index t (0 : Fin 2) = win0_12.index t (0 : Fin 1) ∧ win0_0.index t (1 : Fin 2) = 0
    ∧ win0_1.index t (0 : Fin 2) = win0_12.index t (0 : Fin 1) ∧ win0_1.index t (1 : Fin 2) = 0
    ∧ win0_2.index t (0 : Fin 1) = win0_12.index t (0 : Fin 1)
    ∧ win0_12.index t (0 : Fin 1) ≤ 7 :=
  (by decide +kernel : ∀ t : Fin grid0.N, _)

/-- The weight windows stay at block zero. -/
theorem idx_consts : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Every block index of the result is some point's. -/
theorem idx_onto : ∀ q : Fin 8, ∃ t : Fin cfg0.N, win0_12.index t (0 : Fin 1) = q.val :=
  (by decide +kernel : ∀ q : Fin 8, ∃ t : Fin grid0.N, win0_12.index t (0 : Fin 1) = q.val)

/-! ## The windows' blocks as rows of their arrays -/

theorem blk0 (c : Dev nD) (t : Fin cfg0.N) (p : Fin 2048) (a : Fin 100) (r : Fin 16384)
    (hr : r.val = win0_12.index t (0 : Fin 1) * 2048 + p.val) :
    (iblk m c 0 t : Vec Ideal S2048x100 .f32) (ix2 p a) = arrU m c (ix2 r a) := by
  have h := idx_rows t
  unfold iblk
  rw [View.read_apply]
  show V m c main_v67 _ = V m c main_v67 _
  congr 1
  funext ax
  apply Fin.ext
  match ax with
  | ⟨0, _⟩ => show win0_0.index t (0 : Fin 2) * 2048 + 1 * p.val = r.val; omega
  | ⟨1, _⟩ => show win0_0.index t (1 : Fin 2) * 100 + 1 * a.val = a.val; omega

theorem blk1 (c : Dev nD) (t : Fin cfg0.N) (p : Fin 2048) (a : Fin 100) (r : Fin 16384)
    (hr : r.val = win0_12.index t (0 : Fin 1) * 2048 + p.val) :
    (iblk m c 1 t : Vec Ideal S2048x100 .f32) (ix2 p a) = arrI m c (ix2 r a) := by
  have h := idx_rows t
  unfold iblk
  rw [View.read_apply]
  show V m c main_v74 _ = V m c main_v74 _
  congr 1
  funext ax
  apply Fin.ext
  match ax with
  | ⟨0, _⟩ => show win0_1.index t (0 : Fin 2) * 2048 + 1 * p.val = r.val; omega
  | ⟨1, _⟩ => show win0_1.index t (1 : Fin 2) * 100 + 1 * a.val = a.val; omega

theorem blk2 (c : Dev nD) (t : Fin cfg0.N) (p : Fin 2048) (r : Fin 16384)
    (hr : r.val = win0_12.index t (0 : Fin 1) * 2048 + p.val) :
    (iblk m c 2 t : Vec Ideal S2048 .f32) (ix1 p) = arrBias m c (ix1 r) := by
  have h := idx_rows t
  unfold iblk
  rw [View.read_apply]
  show V m c main_v97 _ = V m c main_v97 _
  congr 1
  funext ax
  apply Fin.ext
  match ax with
  | ⟨0, _⟩ => show win0_2.index t (0 : Fin 1) * 2048 + 1 * p.val = r.val; omega

theorem blk3 (c : Dev nD) (t : Fin cfg0.N) (p : Fin 100) (q : Fin 128) :
    (iblk m c 3 t : Vec Ideal S100x128 .f32) (ix2 p q) = arrWu m c (ix2 p q) := by
  have h := idx_consts t
  unfold iblk
  rw [View.read_apply]
  show V m c main_v98 _ = V m c main_v98 _
  congr 1
  funext ax
  apply Fin.ext
  match ax with
  | ⟨0, _⟩ => show win0_3.index t (0 : Fin 2) * 100 + 1 * p.val = p.val; omega
  | ⟨1, _⟩ => show win0_3.index t (1 : Fin 2) * 128 + 1 * q.val = q.val; omega

theorem blk4 (c : Dev nD) (t : Fin cfg0.N) (p : Fin 100) (q : Fin 128) :
    (iblk m c 4 t : Vec Ideal S100x128 .f32) (ix2 p q) = arrWi m c (ix2 p q) := by
  have h := idx_consts t
  unfold iblk
  rw [View.read_apply]
  show V m c main_v99 _ = V m c main_v99 _
  congr 1
  funext ax
  apply Fin.ext
  match ax with
  | ⟨0, _⟩ => show win0_4.index t (0 : Fin 2) * 100 + 1 * p.val = p.val; omega
  | ⟨1, _⟩ => show win0_4.index t (1 : Fin 2) * 128 + 1 * q.val = q.val; omega

theorem blk5 (c : Dev nD) (t : Fin cfg0.N) (p : Fin 1) (q : Fin 128) :
    (iblk m c 5 t : Vec Ideal S1x128 .f32) (ix2 p q) = arrB1 m c (ix2 p q) := by
  have h := idx_consts t
  unfold iblk
  rw [View.read_apply]
  show V m c main_v100 _ = V m c main_v100 _
  congr 1
  funext ax
  apply Fin.ext
  match ax with
  | ⟨0, _⟩ => show win0_5.index t (0 : Fin 2) * 1 + 1 * p.val = p.val; omega
  | ⟨1, _⟩ => show win0_5.index t (1 : Fin 2) * 128 + 1 * q.val = q.val; omega

theorem blk6 (c : Dev nD) (t : Fin cfg0.N) (p : Fin 128) (q : Fin 64) :
    (iblk m c 6 t : Vec Ideal S128x64 .f32) (ix2 p q) = arrW4 m c (ix2 p q) := by
  have h := idx_consts t
  unfold iblk
  rw [View.read_apply]
  show V m c main_arg9 _ = V m c main_arg9 _
  congr 1
  funext ax
  apply Fin.ext
  match ax with
  | ⟨0, _⟩ => show win0_6.index t (0 : Fin 2) * 128 + 1 * p.val = p.val; omega
  | ⟨1, _⟩ => show win0_6.index t (1 : Fin 2) * 64 + 1 * q.val = q.val; omega

theorem blk7 (c : Dev nD) (t : Fin cfg0.N) (p : Fin 1) (q : Fin 64) :
    (iblk m c 7 t : Vec Ideal S1x64 .f32) (ix2 p q) = arrB4 m c (ix2 p q) := by
  have h := idx_consts t
  unfold iblk
  rw [View.read_apply]
  show V m c main_v101 _ = V m c main_v101 _
  congr 1
  funext ax
  apply Fin.ext
  match ax with
  | ⟨0, _⟩ => show win0_7.index t (0 : Fin 2) * 1 + 1 * p.val = p.val; omega
  | ⟨1, _⟩ => show win0_7.index t (1 : Fin 2) * 64 + 1 * q.val = q.val; omega

theorem blk8 (c : Dev nD) (t : Fin cfg0.N) (p : Fin 64) (q : Fin 32) :
    (iblk m c 8 t : Vec Ideal S64x32 .f32) (ix2 p q) = arrW2 m c (ix2 p q) := by
  have h := idx_consts t
  unfold iblk
  rw [View.read_apply]
  show V m c main_arg11 _ = V m c main_arg11 _
  congr 1
  funext ax
  apply Fin.ext
  match ax with
  | ⟨0, _⟩ => show win0_8.index t (0 : Fin 2) * 64 + 1 * p.val = p.val; omega
  | ⟨1, _⟩ => show win0_8.index t (1 : Fin 2) * 32 + 1 * q.val = q.val; omega

theorem blk9 (c : Dev nD) (t : Fin cfg0.N) (p : Fin 1) (q : Fin 32) :
    (iblk m c 9 t : Vec Ideal S1x32 .f32) (ix2 p q) = arrB2 m c (ix2 p q) := by
  have h := idx_consts t
  unfold iblk
  rw [View.read_apply]
  show V m c main_v102 _ = V m c main_v102 _
  congr 1
  funext ax
  apply Fin.ext
  match ax with
  | ⟨0, _⟩ => show win0_9.index t (0 : Fin 2) * 1 + 1 * p.val = p.val; omega
  | ⟨1, _⟩ => show win0_9.index t (1 : Fin 2) * 32 + 1 * q.val = q.val; omega

theorem blk10 (c : Dev nD) (t : Fin cfg0.N) (p : Fin 1) (q : Fin 32) :
    (iblk m c 10 t : Vec Ideal S1x32 .f32) (ix2 p q) = arrW3 m c (ix2 p q) := by
  have h := idx_consts t
  unfold iblk
  rw [View.read_apply]
  show V m c main_v104 _ = V m c main_v104 _
  congr 1
  funext ax
  apply Fin.ext
  match ax with
  | ⟨0, _⟩ => show win0_10.index t (0 : Fin 2) * 1 + 1 * p.val = p.val; omega
  | ⟨1, _⟩ => show win0_10.index t (1 : Fin 2) * 32 + 1 * q.val = q.val; omega

theorem blk11 (c : Dev nD) (t : Fin cfg0.N) (p : Fin 1) (q : Fin 1) :
    (iblk m c 11 t : Vec Ideal S1x1 .f32) (ix2 p q) = arrB3 m c (ix2 p q) := by
  have h := idx_consts t
  unfold iblk
  rw [View.read_apply]
  show V m c main_v103 _ = V m c main_v103 _
  congr 1
  funext ax
  apply Fin.ext
  match ax with
  | ⟨0, _⟩ => show win0_11.index t (0 : Fin 2) * 1 + 1 * p.val = p.val; omega
  | ⟨1, _⟩ => show win0_11.index t (1 : Fin 2) * 1 + 1 * q.val = q.val; omega

/-! ## What a point writes back, the cover, the array -/

/-- Point `t` writes back block `t` of the scores. -/
theorem flushed_eq (c : Dev nD) (t : Fin cfg0.N) :
    (dats m 0 c).flushed 12 t = ((cfg0.win 12).blk t).view.read (Elt Ideal) (scores m c) := by
  rw [flushed12]
  funext y
  have h := idx_rows t
  have hy : ((y : S2048.Idx) 0).val < 2048 := ((y : S2048.Idx) 0).isLt
  have hr : win0_12.index t (0 : Fin 1) * 2048 + ((y : S2048.Idx) 0).val < 16384 := by omega
  rw [View.read_apply]
  show out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) y
    = scores m c (((cfg0.win 12).blk t).view.emb y)
  rw [scores_apply m c _ ⟨win0_12.index t (0 : Fin 1) * 2048 + ((y : S2048.Idx) 0).val, hr⟩
    (by show win0_12.index t (0 : Fin 1) * 2048 + ((y : S2048.Idx) 0).val = win0_12.index t (0 : Fin 1) * 2048 + 1 * ((y : S2048.Idx) 0).val; omega)]
  refine (block_score_idx (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) y
      ⟨((y : S2048.Idx) 0).val, hy⟩ rfl).trans ?_
  unfold rowScore
  exact Mlp.score_congr (fun a => blk0 m c t _ a _ rfl) (fun a => blk1 m c t _ a _ rfl) (fun a i => blk3 m c t a i)
    (fun a i => blk4 m c t a i) (fun i => blk5 m c t 0 i) (fun i j => blk6 m c t i j) (fun j => blk7 m c t 0 j)
    (fun j k => blk8 m c t j k) (fun k => blk9 m c t 0 k) (fun k => blk10 m c t 0 k) (blk11 m c t 0 0) (blk2 m c t _ _ rfl)

/-- The eight blocks tile the result, so after the run it holds the scores. -/
theorem final (c : Dev nD) : (dats m 0 c).arrAt 12 cfg0.N = scores m c :=
  (dats m 0 c).arrAt_eq_of_cover 12 (scores m c) (fun t _ => flushed_eq m c t) fun (i : S16384.Idx) => by
    have hi : (i 0).val < 16384 := (i 0).isLt
    obtain ⟨t, ht⟩ := idx_onto ⟨(i 0).val / 2048, by omega⟩
    have ht' : win0_12.index t (0 : Fin 1) = (i 0).val / 2048 := ht
    refine ⟨t, flush0_12 t, ?_⟩
    show i ∈ ((View.whole main_v105).slice (win0_12.rect t)).set
    rw [View.set_slice_whole, Rect.mem_set_unit]
    intro a
    match a with
    | ⟨0, _⟩ =>
      show win0_12.index t (0 : Fin 1) * 2048 ≤ (i 0).val ∧ (i 0).val < win0_12.index t (0 : Fin 1) * 2048 + 2048
      omega

/-- The run, read: the result array at the scores, the arguments unchanged. -/
theorem run : θ_run defs (onTc (τ := τ) (main (F := Ideal))) ⟨m, fun _ => 0, ρ⟩ fun r => ∀ c : Dev nD,
      r.2.mem ((c : Thread nD τ).loc main_v105) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (run_blocks m ρ)

end Cert.KernelIdeal.Scores

end
-- ==== Proof.KernelHost.lean ====
/-
  What the pallas_call's windows hold when the region is entered, as functions of the program's arguments.

  Before the region the program propagates the node embeddings over the graph (four rounds of gather, scale and
  scatter-add, averaged), gathers the batch's user rows and item rows of the result, gathers and adds the two per-row
  biases, cuts the first matrix into its upper and lower hundred rows, and re-lays the bias vectors and the last matrix as
  rows. The reference program runs the SAME operations, in the same order, on the same arguments before it goes its own
  way, so the three gathered arrays are stated here as the reference's own stages of the arguments: nothing about a
  gather or a scatter-add is opened, the two operation lists are only compared. The comparison is made at an arbitrary
  float family, where no operation unfolds.
-/
import proofs.«428729_j68513318305793_3_alg».proof.Proof.Gen.KernelIdeal.Frame
import proofs.«428729_j68513318305793_3_alg».proof.Proof.RefRead
import proofs.«428729_j68513318305793_3_alg».proof.Proof.LibCat2
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- Window 0's array: the batch's user rows of the propagated embeddings. -/
theorem V_user (c : Dev nD) :
    V m c main_v67 = Cert.ReferenceIdeal.ReadP.val_main_v67 (F := F) (m ((c : Thread nD τ).loc main_arg0))
      (m ((c : Thread nD τ).loc main_arg2)) (m ((c : Thread nD τ).loc main_arg3)) (m ((c : Thread nD τ).loc main_arg4))
      (m ((c : Thread nD τ).loc main_arg5)) (m ((c : Thread nD τ).loc main_arg6)) := by
  dsimp only [V, hostOps0]
  after_results_simp <;> rfl

set_option maxHeartbeats 4000000 in
/-- Window 1's array: the batch's item rows of the propagated embeddings. -/
theorem V_item (c : Dev nD) :
    V m c main_v74 = Cert.ReferenceIdeal.ReadP.val_main_v74 (F := F) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  dsimp only [V, hostOps0]
  after_results_simp <;> rfl

set_option maxHeartbeats 4000000 in
/-- Window 2's array: each row's user bias plus item bias. The two gathers' index arrays are each a computed column joined
    with a column of zeros, so the joins are taken as functions of their operands for the pass to reach inside. -/
theorem V_bias (c : Dev nD) :
    V m c main_v97 = Cert.ReferenceIdeal.ReadP.val_main_v115 (F := F) (m ((c : Thread nD τ).loc main_arg0))
      (m ((c : Thread nD τ).loc main_arg1)) (m ((c : Thread nD τ).loc main_arg15)) (m ((c : Thread nD τ).loc main_arg16)) := by
  dsimp only [V, hostOps0]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', LibCat2.cat2_eq]
  rfl

set_option maxHeartbeats 4000000 in
/-- Window 3's array: the upper hundred rows of the first matrix. -/
theorem V_w1u (c : Dev nD) :
    V m c main_v98 = extractStridedSlice S100x128 ![0, 0] (m ((c : Thread nD τ).loc main_arg7)) slices_S200x128_S100x128_0_0 := by
  dsimp only [V, hostOps0]
  after_results_simp <;> rfl

set_option maxHeartbeats 4000000 in
/-- Window 4's array: the lower hundred rows of the first matrix. -/
theorem V_w1i (c : Dev nD) :
    V m c main_v99 = extractStridedSlice S100x128 ![100, 0] (m ((c : Thread nD τ).loc main_arg7)) slices_S200x128_S100x128_100_0 := by
  dsimp only [V, hostOps0]
  after_results_simp <;> rfl

set_option maxHeartbeats 4000000 in
/-- Window 5's array: the first bias as a row. -/
theorem V_b1 (c : Dev nD) :
    V m c main_v100 = shapeCast S1x128 (m ((c : Thread nD τ).loc main_arg8)) shapeCasts_S128_S1x128 := by
  dsimp only [V, hostOps0]
  after_results_simp <;> rfl

set_option maxHeartbeats 4000000 in
/-- Window 7's array: the second bias as a row. -/
theorem V_b4 (c : Dev nD) :
    V m c main_v101 = shapeCast S1x64 (m ((c : Thread nD τ).loc main_arg10)) shapeCasts_S64_S1x64 := by
  dsimp only [V, hostOps0]
  after_results_simp <;> rfl

set_option maxHeartbeats 4000000 in
/-- Window 9's array: the third bias as a row. -/
theorem V_b2 (c : Dev nD) :
    V m c main_v102 = shapeCast S1x32 (m ((c : Thread nD τ).loc main_arg12)) shapeCasts_S32_S1x32 := by
  dsimp only [V, hostOps0]
  after_results_simp <;> rfl

set_option maxHeartbeats 4000000 in
/-- Window 11's array: the last bias as a one-by-one array. -/
theorem V_b3 (c : Dev nD) :
    V m c main_v103 = shapeCast S1x1 (m ((c : Thread nD τ).loc main_arg14)) shapeCasts_S1_S1x1 := by
  dsimp only [V, hostOps0]
  after_results_simp <;> rfl

set_option maxHeartbeats 4000000 in
/-- Window 10's array: the last matrix, a column of 32, as a row. -/
theorem V_w3 (c : Dev nD) :
    V m c main_v104 = shapeCast S1x32 (m ((c : Thread nD τ).loc main_arg13)) shapeCasts_S32x1_S1x32 := by
  dsimp only [V, hostOps0]
  after_results_simp <;> rfl

end Cert.KernelIdeal.Host

end
-- ==== Proof.Halves.lean ====
/-
  The two halves of a row of 200: position `a` of the first hundred and position `a` of the second hundred, and the
  sum over the 200 positions as the sum over the first half plus the sum over the second. Only the grouping of a finite
  sum changes, so this holds in every commutative additive monoid.
-/
import Mathlib.Algebra.BigOperators.Fin

open scoped BigOperators

namespace Cert.Mlp

/-- Position `a` of the first hundred of 200. -/
def lo (a : Fin 100) : Fin 200 := ⟨a.val, by have := a.isLt; omega⟩

/-- Position `a` of the second hundred of 200. -/
def hi (a : Fin 100) : Fin 200 := ⟨a.val + 100, by have := a.isLt; omega⟩

theorem sum_halves {M : Type*} [AddCommMonoid M] (f : Fin 200 → M) :
    ∑ a : Fin 200, f a = (∑ a : Fin 100, f (lo a)) + (∑ a : Fin 100, f (hi a)) := by
  refine (Fin.sum_univ_add (a := 100) (b := 100) f).trans ?_
  exact congrArg₂ (· + ·) rfl (Finset.sum_congr rfl fun a _ => congrArg f (Fin.ext (Nat.add_comm 100 a.val)))

end Cert.Mlp
-- ==== Proof.RefValue.lean ====
/-
  The reference's result at an index: entry `r` of its 16384 scores is the scoring head of `Spec` on row `r` of its gathered
  user rows and item rows.

  The reference joins the two gathered arrays side by side into rows of 200 and multiplies by the whole first matrix: the sum
  over the 200 columns is the sum over the user half against the matrix's upper hundred rows plus the sum over the item half
  against its lower hundred rows (`Halves`). The other layers are a matrix product, a bias broadcast along the rows and a
  sum each, read one operation at a time; the last product's 32 × 1 matrix is read as its one column, and the reshape of
  the 16384 × 1 result to a vector reads row `r`, column 0.
-/
import proofs.«428729_j68513318305793_3_alg».proof.Proof.RefRead
import proofs.«428729_j68513318305793_3_alg».proof.Proof.Spec
import proofs.«428729_j68513318305793_3_alg».proof.Proof.Halves
import Idealize.ShloMosaic.Lib.ValueIdx
import Idealize.ShloMosaic.Lib.Pipeline.Value

noncomputable section

open scoped BigOperators

namespace Cert.ReferenceIdeal.Head

open Cert.ReferenceIdeal Cert.ReferenceIdeal.Gen Cert.ReferenceIdeal.ReadP Idealize.ShloMosaic Idealize.ShloMosaic.ValueIdx

/-! ## The joined rows -/

/-- Column `a` of the first half of a joined row is column `a` of the first array. -/
theorem joined_left (U I : S16384x100.Idx → EReal) (r : Fin 16384) (a : Fin 100) :
    concatenate S16384x200 1 [⟨S16384x100, U⟩, ⟨S16384x100, I⟩] concatenates_S16384x100_S16384x100_S16384x200_d1 (ix2 r (Mlp.lo a))
      = U (ix2 r a) :=
  concatenate_pair_apply_left (1 : Fin S16384x200.rank) U I concatenates_S16384x100_S16384x100_S16384x200_d1
    (ix2 r (Mlp.lo a)) rfl (ix2 r a) (fun b => by match b with | ⟨0, _⟩ => rfl | ⟨1, _⟩ => rfl)

/-- Column `a` of the second half of a joined row is column `a` of the second array. -/
theorem joined_right (U I : S16384x100.Idx → EReal) (r : Fin 16384) (a : Fin 100) :
    concatenate S16384x200 1 [⟨S16384x100, U⟩, ⟨S16384x100, I⟩] concatenates_S16384x100_S16384x100_S16384x200_d1 (ix2 r (Mlp.hi a))
      = I (ix2 r a) :=
  concatenate_pair_apply_right (1 : Fin S16384x200.rank) U I concatenates_S16384x100_S16384x100_S16384x200_d1
    (ix2 r (Mlp.hi a)) rfl rfl (ix2 r a)
    (fun b hb => by match b, hb with | ⟨0, _⟩, _ => rfl | ⟨1, _⟩, hb => exact absurd rfl hb) rfl

variable (x0 x1 : (⟨S16384, .i32⟩ : BufTy).Contents (Elt Ideal)) (x2 x3 : (⟨S2299964, .i32⟩ : BufTy).Contents (Elt Ideal))
  (x4 : (⟨S2299964, .f32⟩ : BufTy).Contents (Elt Ideal)) (x5 : (⟨S200000x100, .f32⟩ : BufTy).Contents (Elt Ideal))
  (x6 : (⟨S100000x100, .f32⟩ : BufTy).Contents (Elt Ideal)) (x7 : (⟨S200x128, .f32⟩ : BufTy).Contents (Elt Ideal))
  (x8 : (⟨S128, .f32⟩ : BufTy).Contents (Elt Ideal)) (x9 : (⟨S128x64, .f32⟩ : BufTy).Contents (Elt Ideal))
  (x10 : (⟨S64, .f32⟩ : BufTy).Contents (Elt Ideal)) (x11 : (⟨S64x32, .f32⟩ : BufTy).Contents (Elt Ideal))
  (x12 : (⟨S32, .f32⟩ : BufTy).Contents (Elt Ideal)) (x13 : (⟨S32x1, .f32⟩ : BufTy).Contents (Elt Ideal))
  (x14 : (⟨S1, .f32⟩ : BufTy).Contents (Elt Ideal)) (x15 : (⟨S200000x1, .f32⟩ : BufTy).Contents (Elt Ideal))
  (x16 : (⟨S300000x1, .f32⟩ : BufTy).Contents (Elt Ideal))

/-! ## The layers at an index -/

/-- The first hidden layer at `(r, i)`. -/
theorem layer1 (r : Fin 16384) (i : Fin 128) :
    val_main_v80 (F := Ideal) x0 x1 x2 x3 x4 x5 x6 x7 x8 (ix2 r i)
      = Mlp.row1 (fun a => val_main_v67 (F := Ideal) x0 x2 x3 x4 x5 x6 (ix2 r a))
          (fun a => val_main_v74 (F := Ideal) x1 x2 x3 x4 x5 x6 (ix2 r a))
          (fun a i => x7 (ix2 (Mlp.lo a) i)) (fun a i => x7 (ix2 (Mlp.hi a) i)) (fun i => x8 (ix1 i)) i := by
  have el : ∀ k : Fin 200, lidx_main_v76 (ix2 r i) k = ix2 r k := fun k => funext fun a => by
    match a with | ⟨0, _⟩ => rfl | ⟨1, _⟩ => rfl
  have er : ∀ k : Fin 200, ridx_main_v76 (ix2 r i) k = ix2 k i := fun k => funext fun a => by
    match a with | ⟨0, _⟩ => rfl | ⟨1, _⟩ => rfl
  have eb : idx_main_v77 (idx_main_v78 (ix2 r i)) = ix1 i := funext fun a => by
    match a with | ⟨0, _⟩ => rfl
  rw [val_main_v80_apply, val_main_v79_apply, val_main_v76_apply, val_main_v78_apply, val_main_v77_apply,
    val_main_call0_v0_apply, val_main_call0_cst_apply]
  simp only [el, er, eb]
  unfold Mlp.row1
  rw [Mlp.sum_halves]
  unfold val_main_v75
  simp only [joined_left, joined_right]
  rfl

/-- The second hidden layer at `(r, j)`. -/
theorem layer2 (r : Fin 16384) (j : Fin 64) :
    val_main_v84 (F := Ideal) x0 x1 x2 x3 x4 x5 x6 x7 x8 x9 x10 (ix2 r j)
      = Mlp.row2 (fun i => val_main_v80 (F := Ideal) x0 x1 x2 x3 x4 x5 x6 x7 x8 (ix2 r i)) (fun i j => x9 (ix2 i j))
          (fun j => x10 (ix1 j)) j := by
  have el : ∀ k : Fin 128, lidx_main_v81 (ix2 r j) k = ix2 r k := fun k => funext fun a => by
    match a with | ⟨0, _⟩ => rfl | ⟨1, _⟩ => rfl
  have er : ∀ k : Fin 128, ridx_main_v81 (ix2 r j) k = ix2 k j := fun k => funext fun a => by
    match a with | ⟨0, _⟩ => rfl | ⟨1, _⟩ => rfl
  have eb : idx_main_v82 (idx_main_v83 (ix2 r j)) = ix1 j := funext fun a => by
    match a with | ⟨0, _⟩ => rfl
  rw [val_main_v84_apply, val_main_v81_apply, val_main_v83_apply, val_main_v82_apply]
  simp only [el, er, eb]
  rfl

/-- The third hidden layer at `(r, k)`. -/
theorem layer3 (r : Fin 16384) (k : Fin 32) :
    val_main_v88 (F := Ideal) x0 x1 x2 x3 x4 x5 x6 x7 x8 x9 x10 x11 x12 (ix2 r k)
      = Mlp.row3 (fun j => val_main_v84 (F := Ideal) x0 x1 x2 x3 x4 x5 x6 x7 x8 x9 x10 (ix2 r j)) (fun j k => x11 (ix2 j k))
          (fun k => x12 (ix1 k)) k := by
  have el : ∀ q : Fin 64, lidx_main_v85 (ix2 r k) q = ix2 r q := fun q => funext fun a => by
    match a with | ⟨0, _⟩ => rfl | ⟨1, _⟩ => rfl
  have er : ∀ q : Fin 64, ridx_main_v85 (ix2 r k) q = ix2 q k := fun q => funext fun a => by
    match a with | ⟨0, _⟩ => rfl | ⟨1, _⟩ => rfl
  have eb : idx_main_v86 (idx_main_v87 (ix2 r k)) = ix1 k := funext fun a => by
    match a with | ⟨0, _⟩ => rfl
  rw [val_main_v88_apply, val_main_v85_apply, val_main_v87_apply, val_main_v86_apply]
  simp only [el, er, eb]
  rfl

/-- The result at row `r`: the last layer's product with the one column of the last matrix, the last bias, the row's bias. -/
theorem result_at (r : Fin 16384) :
    val_main_v117 (F := Ideal) x0 x1 x2 x3 x4 x5 x6 x7 x8 x9 x10 x11 x12 x13 x14 x15 x16 (ix1 r)
      = Mlp.rowOut (fun k => val_main_v88 (F := Ideal) x0 x1 x2 x3 x4 x5 x6 x7 x8 x9 x10 x11 x12 (ix2 r k))
          (fun k => x13 (ix2 k (0 : Fin 1))) (x14 (ix1 (0 : Fin 1))) (val_main_v115 (F := Ideal) x0 x1 x15 x16 (ix1 r)) := by
  have e116 : idx_main_v116 (ix1 r) = ix2 r (0 : Fin 1) := funext fun a => by
    match a with
    | ⟨0, _⟩ => exact Fin.ext (Nat.div_one _)
    | ⟨1, _⟩ => rfl
  have el : ∀ q : Fin 32, lidx_main_v89 (ix2 r (0 : Fin 1)) q = ix2 r q := fun q => funext fun a => by
    match a with | ⟨0, _⟩ => rfl | ⟨1, _⟩ => rfl
  have er : ∀ q : Fin 32, ridx_main_v89 (ix2 r (0 : Fin 1)) q = ix2 q (0 : Fin 1) := fun q => funext fun a => by
    match a with | ⟨0, _⟩ => rfl | ⟨1, _⟩ => rfl
  have eb : idx_main_v90 (idx_main_v91 (ix2 r (0 : Fin 1))) = ix1 (0 : Fin 1) := funext fun a => by
    match a with | ⟨0, _⟩ => rfl
  rw [val_main_v117_apply, val_main_v116_apply, e116, val_main_v92_apply, val_main_v89_apply, val_main_v91_apply,
    val_main_v90_apply]
  simp only [el, er, eb]
  rfl

/-- Entry `r` of the reference's result is the head on row `r` of its two gathered arrays. -/
theorem score_at (r : Fin 16384) :
    val_main_v117 (F := Ideal) x0 x1 x2 x3 x4 x5 x6 x7 x8 x9 x10 x11 x12 x13 x14 x15 x16 (ix1 r)
      = Mlp.score (fun a => val_main_v67 (F := Ideal) x0 x2 x3 x4 x5 x6 (ix2 r a))
          (fun a => val_main_v74 (F := Ideal) x1 x2 x3 x4 x5 x6 (ix2 r a))
          (fun a i => x7 (ix2 (Mlp.lo a) i)) (fun a i => x7 (ix2 (Mlp.hi a) i)) (fun i => x8 (ix1 i))
          (fun i j => x9 (ix2 i j)) (fun j => x10 (ix1 j)) (fun j k => x11 (ix2 j k)) (fun k => x12 (ix1 k))
          (fun k => x13 (ix2 k (0 : Fin 1))) (x14 (ix1 (0 : Fin 1))) (val_main_v115 (F := Ideal) x0 x1 x15 x16 (ix1 r)) := by
  rw [result_at]
  simp only [layer3, layer2, layer1]
  rfl

end Cert.ReferenceIdeal.Head

end
-- ==== Proof.Bridge.lean ====
/-
  The kernel's scores are the reference's result term of the same arguments.

  Both are the scoring head of `Spec`, row by row, and the head's inputs agree entry by entry: the gathered user rows, item
  rows and per-row biases are the same stages of the arguments on both sides (`KernelHost`); the kernel's two first-layer
  matrices are the upper and the lower hundred rows of the reference's one; its bias rows are the reference's bias vectors
  (a vector cast to one row reads, at column `i`, the vector at `i`); its last-layer row is the reference's 32 × 1 matrix
  read down its one column (a column cast to a row keeps the row-major position); its last bias, a one-by-one array, is
  the one entry of the reference's.
-/
import proofs.«428729_j68513318305793_3_alg».proof.Proof.KernelValue
import proofs.«428729_j68513318305793_3_alg».proof.Proof.KernelHost
import proofs.«428729_j68513318305793_3_alg».proof.Proof.RefValue
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx

/-- A column of `n` entries cast to one row reads, at `(0, k)`, the column at `(k, 0)`. -/
theorem col_as_row {n : ℕ} {α : Type} (x : (⟨2, ![n, 1]⟩ : Shape).Idx → α)
    (h : (⟨2, ![n, 1]⟩ : Shape).ShapeCasts ⟨2, ![1, n]⟩) (k : Fin n) :
    shapeCast ⟨2, ![1, n]⟩ x h (ix2 (0 : Fin 1) k) = x (ix2 k (0 : Fin 1)) :=
  shapeCast_apply x h _ _ (by
    rw [Shape.rowMajor_val_two, Shape.rowMajor_val_two]
    show k.val * 1 + 0 = 0 * n + k.val
    omega)

variable (m : (ℓ : Loc nD τ sig) → Buf (Elt Ideal) ℓ)

/-- The array of scores is the reference's result stage of the kernel's own arguments. -/
theorem scores_eq (c : Dev nD) :
    Scores.scores m c = Cert.ReferenceIdeal.ReadP.val_main_v117 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) := by
  funext i
  obtain ⟨r, rfl⟩ : ∃ r : Fin 16384, i = ix1 r := ⟨i 0, eq_ix1 i⟩
  rw [Cert.ReferenceIdeal.Head.score_at, Scores.scores_apply m c (ix1 r) r rfl]
  unfold Scores.rowScore
  exact Mlp.score_congr
    (fun a => congrFun (Host.V_user m c) (ix2 r a))
    (fun a => congrFun (Host.V_item m c) (ix2 r a))
    (fun a i => (congrFun (Host.V_w1u m c) (ix2 a i)).trans
      (slice2_axis0_apply 0 _ _ a i (Mlp.lo a) (by show a.val = 0 + a.val; omega)))
    (fun a i => (congrFun (Host.V_w1i m c) (ix2 a i)).trans
      (slice2_axis0_apply 100 _ _ a i (Mlp.hi a) (by show a.val + 100 = 100 + a.val; omega)))
    (fun i => (congrFun (Host.V_b1 m c) (ix2 (0 : Fin 1) i)).trans (shapeCast_a_1a_apply _ _ (0 : Fin 1) i))
    (fun i j => congrFun (V_main_arg9 m c) (ix2 i j))
    (fun j => (congrFun (Host.V_b4 m c) (ix2 (0 : Fin 1) j)).trans (shapeCast_a_1a_apply _ _ (0 : Fin 1) j))
    (fun j k => congrFun (V_main_arg11 m c) (ix2 j k))
    (fun k => (congrFun (Host.V_b2 m c) (ix2 (0 : Fin 1) k)).trans (shapeCast_a_1a_apply _ _ (0 : Fin 1) k))
    (fun k => (congrFun (Host.V_w3 m c) (ix2 (0 : Fin 1) k)).trans (col_as_row _ _ k))
    ((congrFun (Host.V_b3 m c) (ix2 (0 : Fin 1) (0 : Fin 1))).trans (shapeCast_a_1a_apply _ _ (0 : Fin 1) (0 : Fin 1)))
    (congrFun (Host.V_bias m c) (ix1 r))

end Cert.KernelIdeal.Bridge

end
-- ==== Proof.lean ====
/-
  The certificate of a recommender's scoring kernel against its plain reference.

  Both programs propagate node embeddings over a bipartite graph (four rounds of gather, scale and scatter-add, averaged),
  gather the batch's user rows `u` and item rows `v` of the result and the two per-row biases, and score each row by a small
  multi-layer head: `h₁ = max (·W₁ + b₁) 0` on the joined row `[u, v]`, `h₂ = h₁W₄ + b₄`, `h₃ = h₂W₂ + b₂`,
  `out = (h₃W₃ + b₃) + bias`. The kernel runs the head on the TensorCore over eight blocks of 2048 rows, with the first
  matrix cut in two (`uW₁ᵘ + vW₁ⁱ` in place of `[u, v]W₁`), the narrower float formats of its matrix unit, and the last
  product as a row sum; the propagation and the gathers are the same host operations in both programs.

  At the ideal values a change of float format is the identity and a matrix product is the exact sum of products, so the two
  heads differ only in how the first layer's sum over 200 columns is grouped: the sum over the first hundred plus the sum
  over the last hundred. That is associativity and commutativity of addition on the extended reals; no input need be finite
  for it, and the precondition is not opened.

  Modules: `Spec` (the head on one row), `Halves` (the split sum), `KernelBody` (the body's stored block at a row is the
  head), `KernelValue` (blocks to the result array, the kernel's run), `KernelHost` (the arrays the region finds, as stages
  of the arguments), `RefValue` (the reference's result at a row is the head), `Bridge` (the two results are one array).
  The frames are the generated ones; the reference's frame is its run with the result dropped; the idealization
  rewrote nothing, so `preserves` has nothing to state.
-/
import proofs.«428729_j68513318305793_3_alg».proof.Defs
import proofs.«428729_j68513318305793_3_alg».proof.Proof.Gen.Kernel
import proofs.«428729_j68513318305793_3_alg».proof.Proof.Gen.Kernel.Skeleton
import proofs.«428729_j68513318305793_3_alg».proof.Proof.Gen.Kernel.Launch
import proofs.«428729_j68513318305793_3_alg».proof.Proof.Gen.Kernel.Points
import proofs.«428729_j68513318305793_3_alg».proof.Proof.Gen.Kernel.Frame
import proofs.«428729_j68513318305793_3_alg».proof.Proof.Gen.KernelIdeal
import proofs.«428729_j68513318305793_3_alg».proof.Proof.Gen.KernelIdeal.Skeleton
import proofs.«428729_j68513318305793_3_alg».proof.Proof.Gen.KernelIdeal.Launch
import proofs.«428729_j68513318305793_3_alg».proof.Proof.Gen.KernelIdeal.Points
import proofs.«428729_j68513318305793_3_alg».proof.Proof.Gen.KernelIdeal.Frame
import proofs.«428729_j68513318305793_3_alg».proof.Proof.Gen.KernelIdeal.Value
import proofs.«428729_j68513318305793_3_alg».proof.Proof.Gen.ReferenceIdeal
import proofs.«428729_j68513318305793_3_alg».proof.Proof.RefRun
import proofs.«428729_j68513318305793_3_alg».proof.Proof.RefRead
import proofs.«428729_j68513318305793_3_alg».proof.Proof.Gen.Pre_finite_inputs
import proofs.«428729_j68513318305793_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

/-- From memories that agree on the arguments, the kernel's result array ends at the head of each row (its value run) and
    the reference's at its result stage of the same arguments (its generated run): one array (`Bridge.scores_eq`). -/
theorem algebraic : Cert.algebraic_KernelIdeal_ReferenceIdeal := by
  intro m ρ m' ρ' _ hagree
  refine ⟨fun c => Cert.KernelIdeal.Scores.scores m c, Cert.KernelIdeal.Scores.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16⟩ := hagree c
  rw [Cert.ReferenceIdeal.ReadP.val_main_v117_eq, h0, h1, h2, h3, h4, h5, h6, h7, h8, h9, h10, h11, h12, h13, h14, h15, h16]
  exact (Cert.KernelIdeal.Bridge.scores_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
